-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg1 : IVec S2x1600000 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_c_6 : IVec S_ 32 := constantI S_ 32 4294867296#32
  let main_v19 : IVec S2x1600000 32 := broadcastInDim S2x1600000 ![] bcast_S_S2x1600000 main_c_6
  let main_v20 : IVec S2x1600000 1 := cmpi .sge main_arg1 main_v19
  let main_c_7 : IVec S_ 32 := constantI S_ 32 100000#32
  let main_v21 : IVec S2x1600000 32 := broadcastInDim S2x1600000 ![] bcast_S_S2x1600000 main_c_7
  let main_v22 : IVec S2x1600000 1 := cmpi .slt main_arg1 main_v21
  let main_v23 : IVec S2x1600000 1 := andi main_v20 main_v22
  let main_c_8 : IVec S_ 1 := constantI S_ 1 1#1
  let main_v24 : IVec S_ 1 := (fun x v => Host.reduce IntOp.andi x v reducesTo_S2x1600000_S_d0_1 h_S_) main_v23 main_c_8
  let main_v25 : IVec S_ 1 := andi main_v18 main_v24
  main_v25

def fn {F : FTy → Type} [FloatOps F] (main_arg0 : FVec F S100000x128 .f32) (main_arg1 : IVec S2x1600000 32) (main_arg2 : FVec F S1600000 .f32) (main_arg3 : FVec F S1x128 .f32) (main_arg4 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg1 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S1x128 : Shape := ⟨2, ![1, 128]⟩
abbrev S1 : Shape := ⟨1, ![1]⟩
abbrev S1x1600000 : Shape := ⟨2, ![1, 1600000]⟩
abbrev S1x1 : Shape := ⟨2, ![1, 1]⟩
abbrev S100000x1 : Shape := ⟨2, ![100000, 1]⟩
abbrev S10000x128 : Shape := ⟨2, ![10000, 128]⟩
abbrev S10000x1 : Shape := ⟨2, ![10000, 1]⟩
abbrev S128x1 : Shape := ⟨2, ![128, 1]⟩
abbrev S100000 : Shape := ⟨1, ![100000]⟩
abbrev S_ : Shape := ⟨0, ![]⟩
abbrev S1600000x1 : Shape := ⟨2, ![1600000, 1]⟩
abbrev S12500x128 : Shape := ⟨2, ![12500, 128]⟩
abbrev S128 : Shape := ⟨1, ![128]⟩
abbrev S1600000x128 : Shape := ⟨2, ![1600000, 128]⟩

abbrev nBuf : Space → Nat
  | .hbm => 91
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S1x128, .f32⟩
  | .hbm, ⟨4, _⟩ => ⟨S1, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S1x1, .f32⟩
  | .hbm, ⟨10, _⟩ => ⟨S100000x1, .f32⟩
  | .hbm, ⟨11, _⟩ => ⟨S100000, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1, .i32⟩
  | .hbm, ⟨21, _⟩ => ⟨S_, .i32⟩
  | .hbm, ⟨22, _⟩ => ⟨S1600000x1, .i32⟩
  | .hbm, ⟨23, _⟩ => ⟨S1600000x1, .i1⟩
  | .hbm, ⟨24, _⟩ => ⟨S1x1, .i32⟩
  | .hbm, ⟨25, _⟩ => ⟨S1600000x1, .i32⟩
  | .hbm, ⟨26, _⟩ => ⟨S1600000x1, .i1⟩
  | .hbm, ⟨27, _⟩ => ⟨S1600000x1, .i1⟩
  | .hbm, ⟨28, _⟩ => ⟨S_, .i1⟩
  | .hbm, ⟨29, _⟩ => ⟨S1600000, .i1⟩
  | .hbm, ⟨30, _⟩ => ⟨S1600000, .f32⟩
  | .hbm, ⟨31, _⟩ => ⟨S_, .f32⟩
  | .hbm, ⟨32, _⟩ => ⟨S1600000, .f32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1, .i32⟩
  | .hbm, ⟨43, _⟩ => ⟨S_, .i32⟩
  | .hbm, ⟨44, _⟩ => ⟨S1600000x1, .i32⟩
  | .hbm, ⟨45, _⟩ => ⟨S1600000x1, .i1⟩
  | .hbm, ⟨46, _⟩ => ⟨S1x1, .i32⟩
  | .hbm, ⟨47, _⟩ => ⟨S1600000x1, .i32⟩
  | .hbm, ⟨48, _⟩ => ⟨S1600000x1, .i1⟩
  | .hbm, ⟨49, _⟩ => ⟨S1600000x1, .i1⟩
  | .hbm, ⟨50, _⟩ => ⟨S_, .i1⟩
  | .hbm, ⟨51, _⟩ => ⟨S1600000, .i1⟩
  | .hbm, ⟨52, _⟩ => ⟨S1600000, .f32⟩
  | .hbm, ⟨53, _⟩ => ⟨S_, .f32⟩
  | .hbm, ⟨54, _⟩ => ⟨S1600000, .f32⟩
  | .hbm, ⟨55, _⟩ => ⟨S1600000, .f32⟩
  | .hbm, ⟨56, _⟩ => ⟨S12500x128, .f32⟩
  | .hbm, ⟨57, _⟩ => ⟨S12500x128, .f32⟩
  | .hbm, ⟨58, _⟩ => ⟨S12500x128, .f32⟩
  | .hbm, ⟨59, _⟩ => ⟨S12500x128, .f32⟩
  | .hbm, ⟨60, _⟩ => ⟨S1600000, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1, .i32⟩
  | .hbm, ⟨70, _⟩ => ⟨S_, .i32⟩
  | .hbm, ⟨71, _⟩ => ⟨S1600000x1, .i32⟩
  | .hbm, ⟨72, _⟩ => ⟨S1600000x1, .i1⟩
  | .hbm, ⟨73, _⟩ => ⟨S1x1, .i32⟩
  | .hbm, ⟨74, _⟩ => ⟨S1600000x1, .i32⟩
  | .hbm, ⟨75, _⟩ => ⟨S1600000x1, .i1⟩
  | .hbm, ⟨76, _⟩ => ⟨S1600000x1, .i1⟩
  | .hbm, ⟨77, _⟩ => ⟨S_, .i1⟩
  | .hbm, ⟨78, _⟩ => ⟨S1600000, .i1⟩
  | .hbm, ⟨79, _⟩ => ⟨S1600000x128, .f32⟩
  | .hbm, ⟨80, _⟩ => ⟨S1600000x128, .i1⟩
  | .hbm, ⟨81, _⟩ => ⟨S_, .f32⟩
  | .hbm, ⟨82, _⟩ => ⟨S1600000x128, .f32⟩
  | .hbm, ⟨83, _⟩ => ⟨S1600000x128, .f32⟩
  | .hbm, ⟨84, _⟩ => ⟨S1600000x1, .f32⟩
  | .hbm, ⟨85, _⟩ => ⟨S1600000x128, .f32⟩
  | .hbm, ⟨86, _⟩ => ⟨S1600000x128, .f32⟩
  | .hbm, ⟨87, _⟩ => ⟨S_, .f32⟩
  | .hbm, ⟨88, _⟩ => ⟨S100000x128, .f32⟩
  | .hbm, ⟨89, _⟩ => ⟨S1600000x1, .i32⟩
  | .hbm, ⟨90, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S1x128, .f32⟩
  | .local _ .vmem, ⟨3, _⟩ => ⟨S1x1, .f32⟩
  | .local _ .vmem, ⟨4, _⟩ => ⟨S10000x1, .f32⟩
  | .local _ .vmem, ⟨5, _⟩ => ⟨S10000x1, .f32⟩
  | .local _ .vmem, ⟨6, _⟩ => ⟨S12500x128, .f32⟩
  | .local _ .vmem, ⟨7, _⟩ => ⟨S12500x128, .f32⟩
  | .local _ .vmem, ⟨8, _⟩ => ⟨S12500x128, .f32⟩
  | .local _ .vmem, ⟨9, _⟩ => ⟨S12500x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v7 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_cst : Ref sig .tc := ⟨.hbm, 53, rfl⟩
abbrev main_call1_v14 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v14 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_cst : Ref sig .tc := ⟨.hbm, 87, rfl⟩
abbrev main_v18 : Ref sig .tc := ⟨.hbm, 88, rfl⟩
abbrev main_v19 : Ref sig .tc := ⟨.hbm, 89, rfl⟩
abbrev main_v20 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S12500x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S12500x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S12500x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S12500x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  transposes_S1x128_p1_0_S128x1 : S1x128.Transposes [1, 0] S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  shapeCasts_S1600000_S12500x128 : S1600000.ShapeCasts S12500x128
  inb_S12500x128_S12500x128_0_0 : ∀ a, (![0, 0] : Fin 2 → Nat) a + S12500x128.size a ≤ S12500x128.size a
  h_S12500x128 : 0 < S12500x128.numel
  shapeCasts_S12500x128_S12500x128 : S12500x128.ShapeCasts S12500x128
  reduces_S12500x128_S128 : S12500x128.Reduces [0] S128
  shapeCasts_S128_S1x128 : S128.ShapeCasts S1x128
  reduces_S1x128_S1 : S1x128.Reduces [1] S1
  broadcasts_S1x1_S12500x128 : S1x1.Broadcasts S12500x128
  shapeCasts_S12500x128_S1600000 : S12500x128.ShapeCasts S1600000
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S10000x128_S128x1_S10000x1_1_0_0_1_n_n_wf : DotDims.WF S10000x128 S128x1 S10000x1 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x1.size a ≤ S100000x1.size a
  hwx0_3 : ∀ i : grid0.Coords, EltTy.bits .f32 = 32 ∨ (Rect.block (s := S100000x1) S10000x1.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S12500x128.size a ≤ S12500x128.size a
  hwx1_0 : ∀ i : grid1.Coords, EltTy.bits .f32 = 32 ∨ (Rect.block (s := S12500x128) S12500x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S12500x128.size a ≤ S12500x128.size a
  hwx1_1 : ∀ i : grid1.Coords, EltTy.bits .f32 = 32 ∨ (Rect.block (s := S12500x128) S12500x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S12500x128.size a ≤ S12500x128.size a
  hwx1_2 : ∀ i : grid1.Coords, EltTy.bits .f32 = 32 ∨ (Rect.block (s := S12500x128) S12500x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S12500x128.size a ≤ S12500x128.size a
  hwx1_3 : ∀ i : grid1.Coords, EltTy.bits .f32 = 32 ∨ (Rect.block (s := S12500x128) S12500x128.size (cc1_transform_3 i) (hinb1_3 i)).WholeWords (EltTy.packing .f32)

variable [Facts₀]

def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S12500x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v10) S12500x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S12500x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S12500x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S1x128 : Shape := ⟨2, ![1, 128]⟩
abbrev S1 : Shape := ⟨1, ![1]⟩
abbrev S1x1600000 : Shape := ⟨2, ![1, 1600000]⟩
abbrev S128x1 : Shape := ⟨2, ![128, 1]⟩
abbrev S100000x1 : Shape := ⟨2, ![100000, 1]⟩
abbrev S1x1 : Shape := ⟨2, ![1, 1]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S1x128, .f32⟩
  | .hbm, ⟨4, _⟩ => ⟨S1, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S128x1, .f32⟩
  | .hbm, ⟨10, _⟩ => ⟨S100000x1, .f32⟩
  | .hbm, ⟨11, _⟩ => ⟨S1x1, .f32⟩
  | .hbm, ⟨12, _⟩ => ⟨S100000x1, .f32⟩
  | .hbm, ⟨13, _⟩ => ⟨S100000x1, .f32⟩
  | .hbm, ⟨14, _⟩ => ⟨S100000x1, .f32⟩
  | .hbm, ⟨15, _⟩ => ⟨S100000x1, .f32⟩
  | .hbm, ⟨16, _⟩ => ⟨S_, .f32⟩
  | .hbm, ⟨17, _⟩ => ⟨S100000x1, .f32⟩
  | .hbm, ⟨18, _⟩ => ⟨S100000x1, .f32⟩
  | .hbm, ⟨19, _⟩ => ⟨S_, .f32⟩
  | .hbm, ⟨20, _⟩ => ⟨S100000x1, .f32⟩
  | .hbm, ⟨21, _⟩ => ⟨S100000x1, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S1600000, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1, .f32⟩
  | .hbm, ⟨48, _⟩ => ⟨S1600000, .f32⟩
  | .hbm, ⟨49, _⟩ => ⟨S1600000, .f32⟩
  | .hbm, ⟨50, _⟩ => ⟨S1600000, .f32⟩
  | .hbm, ⟨51, _⟩ => ⟨S_, .f32⟩
  | .hbm, ⟨52, _⟩ => ⟨S_, .f32⟩
  | .hbm, ⟨53, _⟩ => ⟨S1, .f32⟩
  | .hbm, ⟨54, _⟩ => ⟨S1600000, .f32⟩
  | .hbm, ⟨55, _⟩ => ⟨S1600000, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S1600000x1, .f32⟩
  | .hbm, ⟨66, _⟩ => ⟨S1600000x128, .f32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_7 : Ref sig .tc := ⟨.hbm, 56, rfl⟩
abbrev main_v42 : Ref sig .tc := ⟨.hbm, 57, rfl⟩
abbrev main_v43 : Ref sig .tc := ⟨.hbm, 58, rfl⟩
abbrev main_c_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000_S_d0 : S1600000.ReducesTo [0] S_
  h_S_ : 0 < S_.numel
  bcast_S_S1 : S_.BroadcastsInDim S1 (![] : Fin 0 → Fin S1.rank)
  bcast_S1_S1600000_0 : S1.BroadcastsInDim S1600000 (![0] : Fin 1 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x1_S100000x1_1_0_0_1_n_n_wf : DotDims.WF S100000x128 S128x1 S100000x1 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
/-
  The two functions the kernel's two launches compute, index by index, on the extended reals.

  * `score x w b`: for node `r`, the logistic of the inner product of row `r` of `x` with the weight row `w`,
    plus the bias `b`:  1 / (1 + exp (-(Σ_k x[r,k]·w[0,k] + b[0,0]))).
  * `attn a b w`: the softmax WITHOUT a shift of the energies `a·b·w`, laid out as a 12500 × 128 array:
    exp (a·b·w)[i] divided by the sum of exp (a·b·w) over EVERY index of the array.
-/
import Idealize.ShloMosaic.PureOps.Ideal
import Idealize.ShloMosaic.Lib.ValueIdx

noncomputable section

namespace Cert.Attn

open Idealize.ShloMosaic Idealize.ShloMosaic.ValueIdx

abbrev SNxH : Shape := ⟨2, ![100000, 128]⟩
abbrev SNx1 : Shape := ⟨2, ![100000, 1]⟩
abbrev S1xH : Shape := ⟨2, ![1, 128]⟩
abbrev S1x1 : Shape := ⟨2, ![1, 1]⟩
abbrev SRxL : Shape := ⟨2, ![12500, 128]⟩

/-- The inner product of node `r`'s feature row with the weight row, plus the bias. -/
def logit (x : SNxH.Idx → EReal) (w : S1xH.Idx → EReal) (b : S1x1.Idx → EReal) (r : Fin 100000) : EReal :=
  (∑ k : Fin 128, x (ix2 r k) * w (ix2 (0 : Fin 1) k)) + b (ix2 (0 : Fin 1) (0 : Fin 1))

/-- The node scores, as a column: the logistic of each node's logit. -/
def score (x : SNxH.Idx → EReal) (w : S1xH.Idx → EReal) (b : S1x1.Idx → EReal) : SNx1.Idx → EReal :=
  fun i => Ideal.logistic (logit x w b ⟨(i 0).val, idx2_lt0 i⟩)

/-- The unshifted softmax of the energies `a·b·w` over the whole 12500 × 128 array. -/
def attn (a b w : SRxL.Idx → EReal) : SRxL.Idx → EReal :=
  fun i => Ideal.div (Ideal.exp (a i * b i * w i)) (∑ j : SRxL.Idx, Ideal.exp (a j * b j * w j))

end Cert.Attn

end
-- ==== Proof.KTerm.lean ====
/-
  The kernel program's result as ONE pure term of its five argument arrays: its host operations composed, with
  the two launches' outputs replaced by the functions `Cert.Attn.score` and `Cert.Attn.attn` of what they read.

  * `rowIx`, `colIx`: the two rows of the edge-index array.
  * `normIx`: a negative index moved up by the table's length.
  * `take1 tab idx` / `take2 x idx`: the table's entry (row) at the moved index where that index lies inside the
    table, a not-a-number word elsewhere.
  * `scoresK`: the node scores as a vector; `attnK`: the edge weights of the softmax as a vector.
  * `kres`: rows of `x` taken at `colIx`, scaled by `attnK`, summed into the nodes `rowIx` names.
-/
import proofs.«422199_j34522947125977_3_alg».proof.Proof.Gen.KernelIdeal
import proofs.«422199_j34522947125977_3_alg».proof.Proof.Spec

noncomputable section

namespace Cert.KernelIdeal.KTerm

open Idealize.ShloMosaic Cert.KernelIdeal Cert.KernelIdeal.Gen

/-- Row 0 of the edge-index array: the node each edge's message is added into. -/
def rowIx (a1 : IVec S2x1600000 32) : IVec S1600000 32 :=
  shapeCast S1600000 (extractStridedSlice S1x1600000 ![0, 0] a1 slices_S2x1600000_S1x1600000_0_0) shapeCasts_S1x1600000_S1600000

/-- Row 1 of the edge-index array: the node each edge's message is read from. -/
def colIx (a1 : IVec S2x1600000 32) : IVec S1600000 32 :=
  shapeCast S1600000 (extractStridedSlice S1x1600000 ![1, 0] a1 slices_S2x1600000_S1x1600000_1_0) shapeCasts_S1x1600000_S1600000

/-- A negative index counts from the table's end: it is moved up by the table's length 100000. -/
def normIx (idx : IVec S1600000 32) : IVec S1600000 32 :=
  select (cmpi .slt idx (broadcastInDim S1600000 ![] bcast_S_S1600000 (constantI S_ 32 0#32)))
    (addi idx (broadcastInDim S1600000 ![] bcast_S_S1600000 (constantI S_ 32 100000#32))) idx

/-- The moved indices as a column of one-entry index vectors. -/
def colOf (idx : IVec S1600000 32) : IVec S1600000x1 32 :=
  broadcastInDim S1600000x1 ![0] bcast_S1600000_S1600000x1_0 (normIx idx)

/-- Per edge: does the moved index lie in `[0, 99999]`? -/
def inRange (i5 : IVec S1600000x1 32) : IVec S1600000 1 :=
  Host.reduce IntOp.andi
    (andi (cmpi .sge i5 (broadcastInDim S1600000x1 ![] bcast_S_S1600000x1 (constantI S_ 32 0#32)))
      (cmpi .sle i5 (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- A vector's entries taken at the indices `idx`: the gathered entry where the moved index is in range, the
    not-a-number word elsewhere. -/
def take1 (tab : FVec Ideal S100000 .f32) (idx : IVec S1600000 32) : FVec Ideal S1600000 .f32 :=
  select (inRange (colOf idx))
    (Host.gather gather_S100000_S1600000x1_S1600000_n_0_n_n_0_1_1 tab (colOf idx))
    (broadcastInDim S1600000 ![] bcast_S_S1600000 (constant (F := Ideal) S_ .f32 0x7FC00000#32))

/-- A matrix's rows taken at the indices `idx`, in the same way. -/
def take2 (x : FVec Ideal S100000x128 .f32) (idx : IVec S1600000 32) : FVec Ideal S1600000x128 .f32 :=
  select (broadcastInDim S1600000x128 ![0] bcast_S1600000_S1600000x128_0 (inRange (colOf idx)))
    (Host.gather gather_S100000x128_S1600000x1_S1600000x128_1_0_n_n_0_1_1128 x (colOf idx))
    (broadcastInDim S1600000x128 ![] bcast_S_S1600000x128 (constant (F := Ideal) S_ .f32 0x7FC00000#32))

/-- The node scores as a vector of length 100000. -/
def scoresK (a0 : FVec Ideal S100000x128 .f32) (a3 : FVec Ideal S1x128 .f32) (a4 : FVec Ideal S1 .f32) : FVec Ideal S100000 .f32 :=
  shapeCast S100000 (Cert.Attn.score a0 a3 (shapeCast S1x1 a4 shapeCasts_S1_S1x1) : FVec Ideal S100000x1 .f32) shapeCasts_S100000x1_S100000

/-- The softmax weights of the edges as a vector of length 1600000. -/
def attnK (a0 : FVec Ideal S100000x128 .f32) (a1 : IVec S2x1600000 32) (a2 : FVec Ideal S1600000 .f32)
    (a3 : FVec Ideal S1x128 .f32) (a4 : FVec Ideal S1 .f32) : FVec Ideal S1600000 .f32 :=
  shapeCast S1600000
    (Cert.Attn.attn
      (shapeCast S12500x128 (take1 (scoresK a0 a3 a4) (rowIx a1)) shapeCasts_S1600000_S12500x128)
      (shapeCast S12500x128 (take1 (scoresK a0 a3 a4) (colIx a1)) shapeCasts_S1600000_S12500x128)
      (shapeCast S12500x128 a2 shapeCasts_S1600000_S12500x128) : FVec Ideal S12500x128 .f32)
    shapeCasts_S12500x128_S1600000

/-- The kernel program's result. -/
def kres (a0 : FVec Ideal S100000x128 .f32) (a1 : IVec S2x1600000 32) (a2 : FVec Ideal S1600000 .f32)
    (a3 : FVec Ideal S1x128 .f32) (a4 : FVec Ideal S1 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (rowIx a1))
    (mulf (take2 a0 (colIx a1))
      (broadcastInDim S1600000x128 ![0, 1] bcast_S1600000x1_S1600000x128_0_1
        (broadcastInDim S1600000x1 ![0] bcast_S1600000_S1600000x1_0 (attnK a0 a1 a2 a3 a4))))

end Cert.KernelIdeal.KTerm

end
-- ==== Proof.KRegion0.lean ====
/-
  Launch 0 (ten blocks of 10000 nodes): after it the score array holds `Cert.Attn.score` of the three arrays the
  launch reads, as it finds them.

  Point `t` of the grid reads rows `10000 t … 10000 t + 9999` of the feature array, the whole weight row and the bias
  cell, and writes the same rows of the score column. Its body stores logistic (x · wᵀ + b): on the extended reals the
  two roundings to bf16 are the identity and the matmul into a zero accumulator is the plain sum over the 128 features,
  so row `p` of what point `t` writes is the score of node `10000 t + p`. The ten blocks tile the column (row `r` is
  in the block of point `r / 10000`), so the column ends as the score function of the whole arrays.
-/
import proofs.«422199_j34522947125977_3_alg».proof.Proof.Gen.KernelIdeal.Frame
import proofs.«422199_j34522947125977_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem Cert.KernelIdeal Cert.KernelIdeal.Gen
open Idealize.ShloMosaic.Pipeline (Dat)
open Idealize.ShloMosaic.ValueIdx

variable (V : (c : Dev nD) → (b : Ref sig .tc) → Buf (Elt Ideal) ((c : Thread nD τ).loc b))

/-- The body's loads and its store start at the origin of their buffers. -/
theorem origin2 : (![0, 0] : Fin 2 → Nat) = fun _ => 0 :=
  funext fun a => by match a with | ⟨0, _⟩ => rfl | ⟨1, _⟩ => rfl

/-! ## The contraction's operand indices

The matmul contracts axis 1 of the 10000 x 128 features with axis 0 of the 128 x 1 transposed weights: at output index
`(p, q)` and contraction coordinate `k` it reads the features at `(p, k)` and the weights at `(k, q)`. -/

theorem lhs_row (i : S10000x1.Idx) (q : dot_S10000x128_S128x1_S10000x1_1_0_0_1_n_n.contr.Idx) :
    (dot_S10000x128_S128x1_S10000x1_1_0_0_1_n_n.lhsIdx i q 0).val = (i 0).val := by
  unfold DotDims.lhsIdx
  rw [dif_neg (show ¬(0 : Fin S10000x128.rank) ∈ dot_S10000x128_S128x1_S10000x1_1_0_0_1_n_n.lhsBatch by decide), dif_pos (show (0 : Fin S10000x128.rank) ∈ dot_S10000x128_S128x1_S10000x1_1_0_0_1_n_n.lhsNonContracting by decide)]
  rfl
theorem lhs_contr (i : S10000x1.Idx) (q : dot_S10000x128_S128x1_S10000x1_1_0_0_1_n_n.contr.Idx) :
    (dot_S10000x128_S128x1_S10000x1_1_0_0_1_n_n.lhsIdx i q 1).val = (q ⟨0, by decide⟩).val :=
  dot_S10000x128_S128x1_S10000x1_1_0_0_1_n_n.lhsIdx_val_of_single rfl i q
theorem rhs_contr (i : S10000x1.Idx) (q : dot_S10000x128_S128x1_S10000x1_1_0_0_1_n_n.contr.Idx) :
    (dot_S10000x128_S128x1_S10000x1_1_0_0_1_n_n.rhsIdx i q 0).val = (q ⟨0, by decide⟩).val :=
  dot_S10000x128_S128x1_S10000x1_1_0_0_1_n_n.rhsIdx_val_of_single rfl i q
theorem rhs_col (i : S10000x1.Idx) (q : dot_S10000x128_S128x1_S10000x1_1_0_0_1_n_n.contr.Idx) :
    (dot_S10000x128_S128x1_S10000x1_1_0_0_1_n_n.rhsIdx i q 1).val = (i 1).val := by
  unfold DotDims.rhsIdx
  rw [dif_neg (show ¬(1 : Fin S128x1.rank) ∈ dot_S10000x128_S128x1_S10000x1_1_0_0_1_n_n.rhsBatch by decide), dif_pos (show (1 : Fin S128x1.rank) ∈ dot_S10000x128_S128x1_S10000x1_1_0_0_1_n_n.rhsNonContracting by decide)]
  rfl

/-- The matmul into the zero accumulator, at `(p, q)`: the inner product of row `p` of the left operand with column
    `q` of the right one. -/
theorem matmul_at (l : FVec Ideal S10000x128 .bf16) (r : FVec Ideal S128x1 .bf16) (p : Fin 10000) (q : Fin 1) :
    FloatOps.matmul dot_S10000x128_S128x1_S10000x1_1_0_0_1_n_n none l r (constant (F := Ideal) S10000x1 .f32 0x00000000#32) (ix2 p q)
      = ∑ k : Fin 128, l (ix2 p k) * r (ix2 k q) := by
  rw [Ideal.matmul_constant_zero_apply, ← Equiv.sum_comp (ValueIdx.contrEquiv1 dot_S10000x128_S128x1_S10000x1_1_0_0_1_n_n 128 rfl rfl).symm]
  refine Finset.sum_congr rfl fun k _ => ?_
  have hk := ValueIdx.contrEquiv1_symm_val dot_S10000x128_S128x1_S10000x1_1_0_0_1_n_n 128 rfl rfl k
  have el : dot_S10000x128_S128x1_S10000x1_1_0_0_1_n_n.lhsIdx (ix2 p q) ((ValueIdx.contrEquiv1 dot_S10000x128_S128x1_S10000x1_1_0_0_1_n_n 128 rfl rfl).symm k) = ix2 p k := funext fun a => Fin.ext (by
    match a with
    | ⟨0, _⟩ => exact lhs_row _ _
    | ⟨1, _⟩ => exact (lhs_contr _ _).trans hk)
  have er : dot_S10000x128_S128x1_S10000x1_1_0_0_1_n_n.rhsIdx (ix2 p q) ((ValueIdx.contrEquiv1 dot_S10000x128_S128x1_S10000x1_1_0_0_1_n_n 128 rfl rfl).symm k) = ix2 k q := funext fun a => Fin.ext (by
    match a with
    | ⟨0, _⟩ => exact (rhs_contr _ _).trans hk
    | ⟨1, _⟩ => exact rhs_col _ _)
  rw [el, er]

/-- THE BODY'S PAYLOAD at row `p` (the column has one entry): the logistic of the inner product of the feature
    block's row `p` with the weight row, plus the bias. The two `truncf`s are the identity on the extended reals,
    the transpose reads the weight row at `(0, k)`, the cast of the bias is onto its own shape and the broadcast
    reads its one cell. -/
theorem pay_at (x0 : Vec Ideal S10000x128 .f32) (x1 : Vec Ideal S1x128 .f32) (x2 : Vec Ideal S1x1 .f32) (p : Fin 10000) (q : Fin 1) :
    k0_pay1 (F := Ideal) x0 x1 x2 (ix2 p q)
      = Ideal.logistic ((∑ k : Fin 128, x0 (ix2 p k) * x1 (ix2 (0 : Fin 1) k)) + x2 (ix2 (0 : Fin 1) (0 : Fin 1))) := by
  unfold k0_pay1
  refine congrArg Ideal.logistic (congrArg₂ (· + ·) ?_ ?_)
  · refine (matmul_at _ _ p q).trans (Finset.sum_congr rfl fun k _ => ?_)
    refine congrArg₂ (· * ·) rfl ?_
    obtain rfl : q = 0 := Subsingleton.elim _ _
    exact transpose_ix2_apply _ transposes_S1x128_p1_0_S128x1 k (0 : Fin 1)
  · refine (broadcastTo_apply _ broadcasts_S1x1_S10000x1 (ix2 p q) (ix2 (0 : Fin 1) (0 : Fin 1)) fun a => ?_).trans ?_
    · match a with
      | ⟨0, _⟩ => rfl
      | ⟨1, _⟩ => rfl
    · exact congrFun (shapeCast_self x2 shapeCasts_S1x1_S1x1) _

/-! ## Where point `t`'s blocks sit

Decided over the ten points: the feature window and the score window are at block row `t`, the weight row and the bias
cell at block (0, 0). A block's coordinate in its array is block index × block size + the coordinate inside the block. -/

theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s feature block is row `10000 t + p` of the feature array. -/
theorem features_block (c : Dev nD) (t : Fin cfg0.N) (p : Fin 10000) (k : Fin 128) (r : Fin 100000)
    (hr : r.val = t.val * 10000 + p.val) :
    (iblk0 V c 0 t : Vec Ideal S10000x128 .f32) (ix2 p k) = (V c main_arg0 : Cert.Attn.SNxH.Idx → EReal) (ix2 r k) := by
  unfold iblk0
  rw [View.read_apply]
  show V c main_arg0 _ = V c main_arg0 _
  refine congrArg (V c main_arg0) (funext fun a => Fin.ext ?_)
  match a with
  | ⟨0, _⟩ => show win0_0.index t (0 : Fin 2) * 10000 + 1 * p.val = r.val; rw [(block_index t).1, hr]; omega
  | ⟨1, _⟩ => show win0_0.index t (1 : Fin 2) * 128 + 1 * k.val = k.val; rw [(block_index t).2.1]; omega

/-- Every point's weight block is the whole weight row. -/
theorem weights_block (c : Dev nD) (t : Fin cfg0.N) (k : Fin 128) :
    (iblk0 V c 1 t : Vec Ideal S1x128 .f32) (ix2 (0 : Fin 1) k) = (V c main_arg3 : Cert.Attn.S1xH.Idx → EReal) (ix2 (0 : Fin 1) k) := by
  unfold iblk0
  rw [View.read_apply]
  show V c main_arg3 _ = V c main_arg3 _
  refine congrArg (V c main_arg3) (funext fun a => Fin.ext ?_)
  match a with
  | ⟨0, _⟩ => show win0_1.index t (0 : Fin 2) * 1 + 1 * 0 = 0; rw [(block_index t).2.2.1]
  | ⟨1, _⟩ => show win0_1.index t (1 : Fin 2) * 128 + 1 * k.val = k.val; rw [(block_index t).2.2.2.1]; omega

/-- Every point's bias block is the bias cell. -/
theorem bias_block (c : Dev nD) (t : Fin cfg0.N) :
    (iblk0 V c 2 t : Vec Ideal S1x1 .f32) (ix2 (0 : Fin 1) (0 : Fin 1)) = (V c main_v4 : Cert.Attn.S1x1.Idx → EReal) (ix2 (0 : Fin 1) (0 : Fin 1)) := by
  unfold iblk0
  rw [View.read_apply]
  show V c main_v4 _ = V c main_v4 _
  refine congrArg (V c main_v4) (funext fun a => Fin.ext ?_)
  match a with
  | ⟨0, _⟩ => show win0_2.index t (0 : Fin 2) * 1 + 1 * 0 = 0; rw [(block_index t).2.2.2.2.1]
  | ⟨1, _⟩ => show win0_2.index t (1 : Fin 2) * 1 + 1 * 0 = 0; rw [(block_index t).2.2.2.2.2.1]

/-- ONE POINT'S RESULT, over blocks that are rows `10000 n + ·` of a feature array `X`, the weight row `W` and the
    bias cell `B`: the payload at block row `y 0` is the score of node `10000 n + y 0`. -/
theorem point_score (x0 : Vec Ideal S10000x128 .f32) (x1 : Vec Ideal S1x128 .f32) (x2 : Vec Ideal S1x1 .f32)
    (X : Cert.Attn.SNxH.Idx → EReal) (W : Cert.Attn.S1xH.Idx → EReal) (B : Cert.Attn.S1x1.Idx → EReal) (n : ℕ)
    (h0 : ∀ (p : Fin 10000) (k : Fin 128) (r : Fin 100000), r.val = n * 10000 + p.val → x0 (ix2 p k) = X (ix2 r k))
    (h1 : ∀ k : Fin 128, x1 (ix2 (0 : Fin 1) k) = W (ix2 (0 : Fin 1) k))
    (h2 : x2 (ix2 (0 : Fin 1) (0 : Fin 1)) = B (ix2 (0 : Fin 1) (0 : Fin 1)))
    (y : S10000x1.Idx) (i : Cert.Attn.SNx1.Idx) (hi : (i 0).val = n * 10000 + (y 0).val) :
    k0_pay1 (F := Ideal) x0 x1 x2 y = Cert.Attn.score X W B i := by
  obtain ⟨p, q, rfl⟩ : ∃ (p : Fin 10000) (q : Fin 1), y = ix2 p q := ⟨y 0, y 1, eq_ix2 y⟩
  rw [pay_at]
  unfold Cert.Attn.score Cert.Attn.logit
  refine congrArg Ideal.logistic (congrArg₂ (· + ·) (Finset.sum_congr rfl fun k _ => ?_) h2)
  rw [h0 p k ⟨(i 0).val, idx2_lt0 i⟩ hi, h1 k]

/-- WHAT POINT `t` WRITES BACK is block `t` of the score column of the arrays the launch finds. -/
theorem flushed_eq (c : Dev nD) (t : Fin cfg0.N) :
    (dat0 (F := Ideal) V c).flushed 3 t
      = ((cfg0.win 3).blk t).view.read (Elt Ideal) (Cert.Attn.score (V c main_arg0) (V c main_arg3) (V c main_v4)) := by
  show (cfg0.win 3).cut (grid0.coords t) ((dat0 V c).after 3 t) = _
  rw [after0_3]
  unfold out0_3
  rw [View.canon_unit_zero origin2]
  simp only [View.ld_unit_zero (S := S10000x128) origin2, View.ld_unit_zero (S := S1x128) origin2, View.ld_unit_zero (S := S1x1) origin2]
  funext j
  refine point_score (iblk0 V c 0 t) (iblk0 V c 1 t) (iblk0 V c 2 t) (V c main_arg0) (V c main_arg3) (V c main_v4) t.val
    (fun p k r hr => features_block V c t p k r hr) (fun k => weights_block V c t k) (bias_block V c t) j
    (((cfg0.win 3).blk t).view.emb j) ?_
  show win0_3.index t (0 : Fin 2) * 10000 + 1 * (j 0).val = t.val * 10000 + (j 0).val
  rw [(block_index t).2.2.2.2.2.2.1]; omega

/-- An index of the score array is in point `t`'s block iff each coordinate is in the block's range on its axis. -/
theorem mem_blk (t : Fin cfg0.N) (i : S100000x1.Idx) :
    i ∈ ((cfg0.win 3).blk t).view.set ↔ ∀ a : Fin 2, win0_3.index t a * S10000x1.size a ≤ (i a).val ∧ (i a).val < win0_3.index t a * S10000x1.size a + S10000x1.size a := by
  show i ∈ ((View.whole main_v5).slice (win0_3.rect t)).set ↔ _
  rw [View.set_slice_whole, Rect.mem_set_unit]
  exact Iff.rfl

/-- Row `r` of the score array is in the block of point `r / 10000`, and every point writes back. -/
theorem cover (i : S100000x1.Idx) :
    ∃ t : Fin cfg0.N, (cfg0.win 3).flush t = true ∧ i ∈ ((cfg0.win 3).blk t).view.set := by
  have hi0 : (i 0).val < 100000 := (i 0).isLt
  have hi1 : (i 1).val < 1 := (i 1).isLt
  have hN : cfg0.N = 10 := N_0
  have ht : (i 0).val / 10000 < cfg0.N := by rw [hN]; omega
  obtain ⟨_, _, _, _, _, _, e0, e1⟩ := block_index ⟨(i 0).val / 10000, ht⟩
  refine ⟨⟨(i 0).val / 10000, ht⟩, flush0_3 _, ?_⟩
  rw [mem_blk]
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_3.index ⟨(i 0).val / 10000, ht⟩ (1 : Fin 2) * 1 ≤ (i 1).val ∧ (i 1).val < win0_3.index ⟨(i 0).val / 10000, ht⟩ (1 : Fin 2) * 1 + 1
    rw [e1]; omega

/-- The score array after launch 0: `Cert.Attn.score` of the feature array, the weight row and the bias cell as
    the launch finds them. -/
theorem arrAt0 (c : Dev nD) :
    (dat0 (F := Ideal) V c).arrAt 3 cfg0.N = Cert.Attn.score (V c main_arg0) (V c main_arg3) (V c main_v4) :=
  (dat0 (F := Ideal) V c).arrAt_eq_of_cover 3 (Cert.Attn.score (V c main_arg0) (V c main_arg3) (V c main_v4))
    (fun t _ => flushed_eq V c t) cover

end Cert.KernelIdeal.Region0

end
-- ==== Proof.KRegion1.lean ====
/-
  Launch 1 (one block, the whole 12500 × 128 array): after it the output array holds `Cert.Attn.attn` of the three
  arrays the launch reads, as it finds them.

  The body's one store is, entry by entry, the exponential of the energy there divided by a broadcast of ONE number:
  the sum over the 128 lanes of the sums over the 12500 rows of the exponentials, which is the sum of the exponentials
  over every index of the array. The grid has one point, whose blocks are the whole arrays, so what the point writes
  back is the array the specification names.
-/
import proofs.«422199_j34522947125977_3_alg».proof.Proof.Gen.KernelIdeal.Frame
import proofs.«422199_j34522947125977_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Cert.KernelIdeal Cert.KernelIdeal.Gen
open Idealize.ShloMosaic.Pipeline (Dat)
open Idealize.ShloMosaic.ValueIdx

variable (V : (c : Dev nD) → (b : Ref sig .tc) → Buf (Elt Ideal) ((c : Thread nD τ).loc b))

/-! ## The payload at an entry -/

/-- The energies' exponentials, entry by entry. -/
def expE (x0 x1 x2 : Vec Ideal S12500x128 .f32) : FVec Ideal S12500x128 .f32 :=
  fun j => Ideal.exp (x0 j * x1 j * x2 j)

/-- Inserting row `p` over lane `q` gives the entry `(p, q)`. -/
theorem lift_rows (q : Fin 128) (p : Fin 12500) :
    reduces_S12500x128_S128.lift (ix1 q) p = ix2 p q := by
  funext c
  apply Fin.ext
  match c with
  | ⟨0, _⟩ => rfl
  | ⟨1, _⟩ => rfl

/-- Inserting lane `q` over the one row gives the entry `(u, q)`. -/
theorem lift_lanes (u : Fin 1) (q : Fin 128) :
    reduces_S1x128_S1.lift (ix1 u) q = ix2 u q := by
  funext c
  apply Fin.ext
  match c with
  | ⟨0, _⟩ => rfl
  | ⟨1, _⟩ => rfl

/-- The column sums: over the rows, at lane `q`. -/
theorem colsum_apply (E : FVec Ideal S12500x128 .f32) (hacc : (0x00000000#32 : BitVec 32) = 0x00000000#32) (q : Fin 128) :
    multiReduction (F := Ideal) .add [0] S128 E 0x00000000#32 reduces_S12500x128_S128 (.inl rfl) hacc (ix1 q)
      = ∑ p : Fin 12500, E (ix2 p q) := by
  refine (Ideal.multiReduction_add_single E 0x00000000#32 reduces_S12500x128_S128 (.inl rfl) hacc (ix1 q)).trans ?_
  exact Finset.sum_congr rfl fun p _ => congrArg E (lift_rows q p)

/-- The lane sum of a one-row array. -/
theorem lanesum_apply (R : FVec Ideal S1x128 .f32) (hacc : (0x00000000#32 : BitVec 32) = 0x00000000#32) (u : Fin 1) :
    multiReduction (F := Ideal) .add [1] S1 R 0x00000000#32 reduces_S1x128_S1 (.inl rfl) hacc (ix1 u)
      = ∑ q : Fin 128, R (ix2 u q) := by
  refine (Ideal.multiReduction_add_single R 0x00000000#32 reduces_S1x128_S1 (.inl rfl) hacc (ix1 u)).trans ?_
  exact Finset.sum_congr rfl fun q _ => congrArg R (lift_lanes u q)

/-- The one-row array of column sums read at `(u, q)`, then its lane sum, then the 1×1 array, then its broadcast:
    every entry of the broadcast is the sum over lanes of the sums over rows. -/
theorem den_apply (E : FVec Ideal S12500x128 .f32) (p : Fin 12500) (q : Fin 128) :
    broadcastTo S12500x128
      (shapeCast S1x1
        (multiReduction (F := Ideal) .add [1] S1
          (shapeCast S1x128
            (multiReduction (F := Ideal) .add [0] S128 E 0x00000000#32 reduces_S12500x128_S128 (.inl rfl) rfl)
            shapeCasts_S128_S1x128)
          0x00000000#32 reduces_S1x128_S1 (.inl rfl) rfl)
        shapeCasts_S1_S1x1)
      broadcasts_S1x1_S12500x128 (ix2 p q)
      = ∑ l : Fin 128, ∑ r : Fin 12500, E (ix2 r l) := by
  refine (broadcastTo_apply _ broadcasts_S1x1_S12500x128 (ix2 p q) (ix2 (0 : Fin 1) (0 : Fin 1)) fun a => ?_).trans ?_
  · match a with
    | ⟨0, _⟩ => rfl
    | ⟨1, _⟩ => rfl
  refine (shapeCast_a_1a_apply _ shapeCasts_S1_S1x1 (0 : Fin 1) (0 : Fin 1)).trans ?_
  refine (lanesum_apply _ rfl (0 : Fin 1)).trans ?_
  refine Finset.sum_congr rfl fun l _ => ?_
  refine (shapeCast_a_1a_apply _ shapeCasts_S128_S1x128 (0 : Fin 1) l).trans ?_
  exact colsum_apply E rfl l

/-- The payload at an entry: the exponential of the energy there over the sum of the exponentials of all energies. -/
theorem pay_apply (x0 x1 x2 : Vec Ideal S12500x128 .f32) (p : Fin 12500) (q : Fin 128) :
    k1_pay1 (F := Ideal) x0 x1 x2 (ix2 p q)
      = Ideal.div (Ideal.exp (x0 (ix2 p q) * x1 (ix2 p q) * x2 (ix2 p q)))
          (∑ j : S12500x128.Idx, Ideal.exp (x0 j * x1 j * x2 j)) := by
  unfold k1_pay1
  simp only [shapeCast_self]
  rw [divf_apply]
  have hE : exp (mulf (mulf x0 x1) x2) = expE x0 x1 x2 := rfl
  rw [hE, den_apply (expE x0 x1 x2) p q, sum_idx2, Finset.sum_comm]
  rfl

/-- The payload of whole arrays is the softmax array. -/
theorem pay_eq (x0 x1 x2 : Vec Ideal S12500x128 .f32) :
    k1_pay1 (F := Ideal) x0 x1 x2 = Cert.Attn.attn x0 x1 x2 := by
  funext j
  obtain ⟨p, q, rfl⟩ : ∃ (p : Fin 12500) (q : Fin 128), j = ix2 p q := ⟨j 0, j 1, eq_ix2 j⟩
  exact pay_apply x0 x1 x2 p q

/-! ## From the one block to the array -/

/-- The body's accesses start at `(0, 0)`. -/
theorem hz : (![0, 0] : Fin 2 → Nat) = fun _ => 0 := funext fun a => by fin_cases a <;> rfl

/-- The one block of input window 0 is its whole array. -/
theorem iblk_0 (c : Dev nD) (t : Fin cfg1.N) : iblk1 (F := Ideal) V c 0 t = V c main_v9 := by
  obtain rfl := fin_N1 t
  unfold iblk1
  have hz' : (fun a => win1_0.index t1_0 a * main_v9.ty.shape.size a) = fun _ => 0 :=
    funext fun a => by fin_cases a <;> decide
  exact Memref.read_access_unit_zero (Elt Ideal) main_v9 hz' (fun a => by rw [congrFun hz' a]; simp) (V c main_v9)

/-- The one block of input window 1 is its whole array. -/
theorem iblk_1 (c : Dev nD) (t : Fin cfg1.N) : iblk1 (F := Ideal) V c 1 t = V c main_v10 := by
  obtain rfl := fin_N1 t
  unfold iblk1
  have hz' : (fun a => win1_1.index t1_0 a * main_v10.ty.shape.size a) = fun _ => 0 :=
    funext fun a => by fin_cases a <;> decide
  exact Memref.read_access_unit_zero (Elt Ideal) main_v10 hz' (fun a => by rw [congrFun hz' a]; simp) (V c main_v10)

/-- The one block of input window 2 is its whole array. -/
theorem iblk_2 (c : Dev nD) (t : Fin cfg1.N) : iblk1 (F := Ideal) V c 2 t = V c main_v11 := by
  obtain rfl := fin_N1 t
  unfold iblk1
  have hz' : (fun a => win1_2.index t1_0 a * main_v11.ty.shape.size a) = fun _ => 0 :=
    funext fun a => by fin_cases a <;> decide
  exact Memref.read_access_unit_zero (Elt Ideal) main_v11 hz' (fun a => by rw [congrFun hz' a]; simp) (V c main_v11)

/-- What the one point writes back is the one block — the whole array — of the softmax array. -/
theorem flushed_eq (c : Dev nD) (t : Fin cfg1.N) :
    (dat1 (F := Ideal) V c).flushed 3 t
      = ((cfg1.win 3).blk t).view.read (Elt Ideal) (Cert.Attn.attn (V c main_v9) (V c main_v10) (V c main_v11)) := by
  show (cfg1.win 3).cut (grid1.coords t) ((dat1 (F := Ideal) V c).after 3 t) = _
  rw [after1_3, iblk_0, iblk_1, iblk_2]
  unfold out1_3
  rw [View.canon_unit_zero hz]
  simp only [View.ld_unit_zero (S := S12500x128) hz]
  rw [pay_eq]
  obtain rfl := fin_N1 t
  have hz' : (fun a => win1_3.index t1_0 a * main_v12.ty.shape.size a) = fun _ => 0 :=
    funext fun a => by fin_cases a <;> decide
  exact (Memref.read_access_unit_zero (Elt Ideal) main_v12 hz' (fun a => by rw [congrFun hz' a]; simp)
    (Cert.Attn.attn (V c main_v9) (V c main_v10) (V c main_v11))).symm

/-- Every index of the output array is in the one point's block. -/
theorem cover (i : S12500x128.Idx) :
    ∃ t : Fin cfg1.N, (cfg1.win 3).flush t = true ∧ i ∈ ((cfg1.win 3).blk t).view.set :=
  ⟨t1_0, flush1_3 t1_0, by
    show i ∈ ((View.whole main_v12).slice (win1_3.rect t1_0)).set
    rw [View.set_slice_whole, Rect.mem_set_unit]
    intro a
    have h0 : (i 0 : Nat) < 12500 := (i 0).isLt
    have h1 : (i 1 : Nat) < 128 := (i 1).isLt
    match a with
    | ⟨0, _⟩ =>
      show win1_3.index t1_0 0 * win1_3.size 0 ≤ (i 0 : Nat)
        ∧ (i 0 : Nat) < win1_3.index t1_0 0 * win1_3.size 0 + win1_3.xsize (grid1.coords t1_0) 0
      rw [show win1_3.index t1_0 0 * win1_3.size 0 = 0 from by decide,
        show win1_3.xsize (grid1.coords t1_0) 0 = 12500 from by decide]
      omega
    | ⟨1, _⟩ =>
      show win1_3.index t1_0 1 * win1_3.size 1 ≤ (i 1 : Nat)
        ∧ (i 1 : Nat) < win1_3.index t1_0 1 * win1_3.size 1 + win1_3.xsize (grid1.coords t1_0) 1
      rw [show win1_3.index t1_0 1 * win1_3.size 1 = 0 from by decide,
        show win1_3.xsize (grid1.coords t1_0) 1 = 128 from by decide]
      omega⟩

/-- The softmax array after launch 1: `Cert.Attn.attn` of the two gathered score arrays and the edge-weight array
    as the launch finds them. -/
theorem arrAt1 (c : Dev nD) :
    (dat1 (F := Ideal) V c).arrAt 3 cfg1.N = Cert.Attn.attn (V c main_v9) (V c main_v10) (V c main_v11) :=
  (dat1 (F := Ideal) V c).arrAt_eq_of_cover 3 (Cert.Attn.attn (V c main_v9) (V c main_v10) (V c main_v11))
    (fun t _ => flushed_eq V c t) cover

end Cert.KernelIdeal.Region1

end
-- ==== Proof.KValue.lean ====
/-
  The kernel program's result array, read back through the fold of its host operations and its two launches, is the
  one term `KTerm.kres` of the argument arrays as launched: each stretch of host operations writes the buffers the
  next launch or stretch reads; a launch leaves its output array at the function of what it read (`Region0.arrAt0`,
  `Region1.arrAt1`) and every other buffer as it was.
-/
import proofs.«422199_j34522947125977_3_alg».proof.Proof.Gen.KernelIdeal.Frame
import proofs.«422199_j34522947125977_3_alg».proof.Proof.KTerm
import proofs.«422199_j34522947125977_3_alg».proof.Proof.KRegion0
import proofs.«422199_j34522947125977_3_alg».proof.Proof.KRegion1
import Idealize.ShloMosaic.Lib.StableHlo.Run
import Idealize.ShloMosaic.Lib.Pipeline.Frame

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen Cert.KernelIdeal.KTerm

variable (m : (ℓ : Loc nD τ sig) → Buf (Elt Ideal) ℓ) (ρ : Dev nD → PrngReg)

/-- No operation of the named stretch writes the buffer: its contents pass through the stretch. -/
local macro "untouched" "[" ops:ident "]" : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, Finset.mem_singleton]
      repeat' apply And.intro
      all_goals exact StableHlo.devRef_ne_of_ne (by decide))))

/-! ## Before launch 0: the two index rows, the bias cell, the untouched arguments -/

theorem W1_v1 (c : Dev nD) : W1 m ρ c (Proc.devRef .tc main_v1) = rowIx (m ((c : Thread nD τ).loc main_arg1)) := by
  dsimp only [W1, hostOps0]; after_results; rfl

theorem W1_v3 (c : Dev nD) : W1 m ρ c (Proc.devRef .tc main_v3) = colIx (m ((c : Thread nD τ).loc main_arg1)) := by
  dsimp only [W1, hostOps0]; after_results; rfl

theorem W1_v4 (c : Dev nD) : W1 m ρ c (Proc.devRef .tc main_v4)
    = shapeCast S1x1 (m ((c : Thread nD τ).loc main_arg4)) shapeCasts_S1_S1x1 := by
  dsimp only [W1, hostOps0]; after_results; rfl

theorem W1_arg0 (c : Dev nD) : W1 m ρ c (Proc.devRef .tc main_arg0) = m ((c : Thread nD τ).loc main_arg0) := by
  dsimp only [W1, hostOps0]; after_results

theorem W1_arg3 (c : Dev nD) : W1 m ρ c (Proc.devRef .tc main_arg3) = m ((c : Thread nD τ).loc main_arg3) := by
  dsimp only [W1, hostOps0]; after_results

theorem W1_arg2 (c : Dev nD) : W1 m ρ c (Proc.devRef .tc main_arg2) = m ((c : Thread nD τ).loc main_arg2) := by
  dsimp only [W1, hostOps0]; after_results

/-! ## Launch 0: the score column -/

theorem W2_v5 (c : Dev nD) : W2 m ρ c (Proc.devRef .tc main_v5)
    = Cert.Attn.score (m ((c : Thread nD τ).loc main_arg0)) (m ((c : Thread nD τ).loc main_arg3))
        (shapeCast S1x1 (m ((c : Thread nD τ).loc main_arg4)) shapeCasts_S1_S1x1) := by
  refine (W2_arr m ρ c 3).trans ((Cert.KernelIdeal.Region0.arrAt0 (V1 m ρ) c).trans ?_)
  show Cert.Attn.score (W1 m ρ c (Proc.devRef .tc main_arg0)) (W1 m ρ c (Proc.devRef .tc main_arg3)) (W1 m ρ c (Proc.devRef .tc main_v4)) = _
  rw [W1_arg0, W1_arg3, W1_v4]

/-! ## Between the launches: the score vector, the two takes, the three re-layings

    An operation of a called function moves each value between the value's own type and its buffer's type, the same
    type spelt twice: the moves cancel in pairs, and a move at a literal buffer is the identity. -/

theorem W3_v6 (c : Dev nD) : W3 m ρ c (Proc.devRef .tc main_v6)
    = shapeCast S100000 (W2 m ρ c (Proc.devRef .tc main_v5)) shapeCasts_S100000x1_S100000 := by
  dsimp only [W3, hostOps1]; after_results <;> rfl

theorem W3_v1 (c : Dev nD) : W3 m ρ c (Proc.devRef .tc main_v1) = W1 m ρ c (Proc.devRef .tc main_v1) :=
  Eq.trans (by untouched [hostOps1]) (W2_of_ne m ρ c main_v1 (by decide))

theorem W3_v3 (c : Dev nD) : W3 m ρ c (Proc.devRef .tc main_v3) = W1 m ρ c (Proc.devRef .tc main_v3) :=
  Eq.trans (by untouched [hostOps1]) (W2_of_ne m ρ c main_v3 (by decide))

theorem W3_arg2 (c : Dev nD) : W3 m ρ c (Proc.devRef .tc main_arg2) = W1 m ρ c (Proc.devRef .tc main_arg2) :=
  Eq.trans (by untouched [hostOps1]) (W2_of_ne m ρ c main_arg2 (by decide))

set_option maxHeartbeats 4000000 in
theorem W4_v7 (c : Dev nD) : W4 m ρ c (Proc.devRef .tc main_v7)
    = take1 (W3 m ρ c (Proc.devRef .tc main_v6)) (W3 m ρ c (Proc.devRef .tc main_v1)) := by
  dsimp only [W4, hostOps1_1]; generalize W3 m ρ c = W; after_results_simp
  simp only [cast_cast]
  rw [show ∀ (h1 h2 h3) (X : (⟨S1600000, .f32⟩ : BufTy).Contents (Elt Ideal)), (TRef.of main_v7 h1 h2 h3 : TRef sig ⟨S1600000, .f32⟩).toBuf X = X from fun _ _ _ _ => rfl]
  rw [show ∀ (h1 h2 h3) X, ((TRef.of main_v1 h1 h2 h3 : TRef sig ⟨S1600000, .i32⟩).ofBuf X : (⟨S1600000, .i32⟩ : BufTy).Contents (Elt Ideal)) = X from fun _ _ _ _ => rfl]
  rw [show ∀ (h1 h2 h3) X, ((TRef.of main_v6 h1 h2 h3 : TRef sig ⟨S100000, .f32⟩).ofBuf X : (⟨S100000, .f32⟩ : BufTy).Contents (Elt Ideal)) = X from fun _ _ _ _ => rfl]
  simp only [cast_eq]
  rfl

theorem W4_v6 (c : Dev nD) : W4 m ρ c (Proc.devRef .tc main_v6) = W3 m ρ c (Proc.devRef .tc main_v6) := by
  untouched [hostOps1_1]

theorem W4_v3 (c : Dev nD) : W4 m ρ c (Proc.devRef .tc main_v3) = W3 m ρ c (Proc.devRef .tc main_v3) := by
  untouched [hostOps1_1]

theorem W4_arg2 (c : Dev nD) : W4 m ρ c (Proc.devRef .tc main_arg2) = W3 m ρ c (Proc.devRef .tc main_arg2) := by
  untouched [hostOps1_1]

set_option maxHeartbeats 4000000 in
theorem W5_v8 (c : Dev nD) : W5 m ρ c (Proc.devRef .tc main_v8)
    = take1 (W4 m ρ c (Proc.devRef .tc main_v6)) (W4 m ρ c (Proc.devRef .tc main_v3)) := by
  dsimp only [W5, hostOps1_2]; generalize W4 m ρ c = W; after_results_simp
  simp only [cast_cast]
  rw [show ∀ (h1 h2 h3) (X : (⟨S1600000, .f32⟩ : BufTy).Contents (Elt Ideal)), (TRef.of main_v8 h1 h2 h3 : TRef sig ⟨S1600000, .f32⟩).toBuf X = X from fun _ _ _ _ => rfl]
  rw [show ∀ (h1 h2 h3) X, ((TRef.of main_v3 h1 h2 h3 : TRef sig ⟨S1600000, .i32⟩).ofBuf X : (⟨S1600000, .i32⟩ : BufTy).Contents (Elt Ideal)) = X from fun _ _ _ _ => rfl]
  rw [show ∀ (h1 h2 h3) X, ((TRef.of main_v6 h1 h2 h3 : TRef sig ⟨S100000, .f32⟩).ofBuf X : (⟨S100000, .f32⟩ : BufTy).Contents (Elt Ideal)) = X from fun _ _ _ _ => rfl]
  simp only [cast_eq]
  rfl

theorem W5_v7 (c : Dev nD) : W5 m ρ c (Proc.devRef .tc main_v7) = W4 m ρ c (Proc.devRef .tc main_v7) := by
  untouched [hostOps1_2]

theorem W5_arg2 (c : Dev nD) : W5 m ρ c (Proc.devRef .tc main_arg2) = W4 m ρ c (Proc.devRef .tc main_arg2) := by
  untouched [hostOps1_2]

theorem W6_v9 (c : Dev nD) : W6 m ρ c (Proc.devRef .tc main_v9)
    = shapeCast S12500x128 (W5 m ρ c (Proc.devRef .tc main_v7)) shapeCasts_S1600000_S12500x128 := by
  dsimp only [W6, hostOps1_3]; generalize W5 m ρ c = W; after_results <;> rfl

theorem W6_v10 (c : Dev nD) : W6 m ρ c (Proc.devRef .tc main_v10)
    = shapeCast S12500x128 (W5 m ρ c (Proc.devRef .tc main_v8)) shapeCasts_S1600000_S12500x128 := by
  dsimp only [W6, hostOps1_3]; generalize W5 m ρ c = W; after_results <;> rfl

theorem W6_v11 (c : Dev nD) : W6 m ρ c (Proc.devRef .tc main_v11)
    = shapeCast S12500x128 (W5 m ρ c (Proc.devRef .tc main_arg2)) shapeCasts_S1600000_S12500x128 := by
  dsimp only [W6, hostOps1_3]; generalize W5 m ρ c = W; after_results <;> rfl

/-- The score vector the takes read. -/
theorem W3_v6_eq (c : Dev nD) : W3 m ρ c (Proc.devRef .tc main_v6)
    = scoresK (m ((c : Thread nD τ).loc main_arg0)) (m ((c : Thread nD τ).loc main_arg3)) (m ((c : Thread nD τ).loc main_arg4)) := by
  rw [W3_v6, W2_v5]; rfl

/-! ## Launch 1: the softmax array -/

theorem W7_v12 (c : Dev nD) : W7 m ρ c (Proc.devRef .tc main_v12)
    = Cert.Attn.attn (W6 m ρ c (Proc.devRef .tc main_v9)) (W6 m ρ c (Proc.devRef .tc main_v10)) (W6 m ρ c (Proc.devRef .tc main_v11)) :=
  (W7_arr m ρ c 3).trans (Cert.KernelIdeal.Region1.arrAt1 (V6 m ρ) c)

/-! ## After launch 1: the edge weights as a vector, the rows of x taken at the source nodes, the sum into the
    destination nodes -/

theorem W8_v13 (c : Dev nD) : W8 m ρ c (Proc.devRef .tc main_v13)
    = shapeCast S1600000 (W7 m ρ c (Proc.devRef .tc main_v12)) shapeCasts_S12500x128_S1600000 := by
  dsimp only [W8, hostOps2]; after_results <;> rfl

/-- A buffer written before launch 0 and by nothing after it, read after launch 1's stretch. -/
theorem W8_of_W1 (c : Dev nD) (b : Ref sig .tc)
    (h8 : W8 m ρ c (Proc.devRef .tc b) = W7 m ρ c (Proc.devRef .tc b))
    (h7 : ∀ w, Pipeline.arrRef spec1 w ≠ b)
    (h6 : W6 m ρ c (Proc.devRef .tc b) = W5 m ρ c (Proc.devRef .tc b))
    (h5 : W5 m ρ c (Proc.devRef .tc b) = W4 m ρ c (Proc.devRef .tc b))
    (h4 : W4 m ρ c (Proc.devRef .tc b) = W3 m ρ c (Proc.devRef .tc b))
    (h3 : W3 m ρ c (Proc.devRef .tc b) = W1 m ρ c (Proc.devRef .tc b)) :
    W8 m ρ c (Proc.devRef .tc b) = W1 m ρ c (Proc.devRef .tc b) :=
  h8.trans ((W7_of_ne m ρ c b h7).trans (h6.trans (h5.trans (h4.trans h3))))

theorem W8_v1 (c : Dev nD) : W8 m ρ c (Proc.devRef .tc main_v1) = rowIx (m ((c : Thread nD τ).loc main_arg1)) :=
  (W8_of_W1 m ρ c main_v1 (by untouched [hostOps2]) (by decide) (by untouched [hostOps1_3]) (by untouched [hostOps1_2])
    (by untouched [hostOps1_1]) (W3_v1 m ρ c)).trans (W1_v1 m ρ c)

theorem W8_v3 (c : Dev nD) : W8 m ρ c (Proc.devRef .tc main_v3) = colIx (m ((c : Thread nD τ).loc main_arg1)) :=
  (W8_of_W1 m ρ c main_v3 (by untouched [hostOps2]) (by decide) (by untouched [hostOps1_3]) (by untouched [hostOps1_2])
    (by untouched [hostOps1_1]) (W3_v3 m ρ c)).trans (W1_v3 m ρ c)

theorem W3_arg0 (c : Dev nD) : W3 m ρ c (Proc.devRef .tc main_arg0) = W1 m ρ c (Proc.devRef .tc main_arg0) :=
  Eq.trans (by untouched [hostOps1])
    ((W2_arr m ρ c 0).trans (((dat0 (V1 m ρ) c).arrAt_in 0 rfl _).trans (A_eq0 (V1 m ρ) c 0)))

theorem W8_arg0 (c : Dev nD) : W8 m ρ c (Proc.devRef .tc main_arg0) = m ((c : Thread nD τ).loc main_arg0) :=
  (W8_of_W1 m ρ c main_arg0 (by untouched [hostOps2]) (by decide) (by untouched [hostOps1_3]) (by untouched [hostOps1_2])
    (by untouched [hostOps1_1]) (W3_arg0 m ρ c)).trans (W1_arg0 m ρ c)

/-- The matrix take, head: its first eighteen operations leave the moved indices as a column … -/
theorem take2_head_v5 (W : Valuation τ sig (Elt Ideal)) :
    after ((hostOps2_1 (F := Ideal)).take 18) W (Proc.devRef .tc main_call2_v5) = colOf (W (Proc.devRef .tc main_v3)) := by
  dsimp only [hostOps2_1, List.take]; after_results_simp
  simp only [cast_cast]
  rw [show ∀ (h1 h2 h3) (X : (⟨S1600000x1, .i32⟩ : BufTy).Contents (Elt Ideal)), (TRef.of main_call2_v5 h1 h2 h3 : TRef sig ⟨S1600000x1, .i32⟩).toBuf X = X from fun _ _ _ _ => rfl]
  rw [show ∀ (h1 h2 h3) X, ((TRef.of main_v3 h1 h2 h3 : TRef sig ⟨S1600000, .i32⟩).ofBuf X : (⟨S1600000, .i32⟩ : BufTy).Contents (Elt Ideal)) = X from fun _ _ _ _ => rfl]
  simp only [cast_eq]
  rfl

/-- … and the range test of each, … -/
theorem take2_head_v12 (W : Valuation τ sig (Elt Ideal)) :
    after ((hostOps2_1 (F := Ideal)).take 18) W (Proc.devRef .tc main_call2_v12) = inRange (colOf (W (Proc.devRef .tc main_v3))) := by
  dsimp only [hostOps2_1, List.take]; after_results_simp
  simp only [cast_cast]
  rw [show ∀ (h1 h2 h3) (X : (⟨S1600000, .i1⟩ : BufTy).Contents (Elt Ideal)), (TRef.of main_call2_v12 h1 h2 h3 : TRef sig ⟨S1600000, .i1⟩).toBuf X = X from fun _ _ _ _ => rfl]
  rw [show ∀ (h1 h2 h3) X, ((TRef.of main_v3 h1 h2 h3 : TRef sig ⟨S1600000, .i32⟩).ofBuf X : (⟨S1600000, .i32⟩ : BufTy).Contents (Elt Ideal)) = X from fun _ _ _ _ => rfl]
  simp only [cast_eq]
  rfl

/-- … and do not write the matrix. -/
theorem take2_head_arg0 (W : Valuation τ sig (Elt Ideal)) :
    after ((hostOps2_1 (F := Ideal)).take 18) W (Proc.devRef .tc main_arg0) = W (Proc.devRef .tc main_arg0) := by
  dsimp only [hostOps2_1, List.take]
  exact StableHlo.after_of_forall_not_mem _ _ (List.forall_iff_forall_mem.mp (by
    simp only [List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (by decide)))

attribute [local irreducible] Host.reduce Host.gather in
/-- The matrix take, tail: its last five operations gather the rows at the column of moved indices and keep a
    row where the test passed, the not-a-number word elsewhere. -/
theorem take2_tail (W : Valuation τ sig (Elt Ideal)) :
    after ((hostOps2_1 (F := Ideal)).drop 18) W (Proc.devRef .tc main_v14)
      = select (broadcastInDim S1600000x128 ![0] bcast_S1600000_S1600000x128_0 (W (Proc.devRef .tc main_call2_v12)))
          (Host.gather gather_S100000x128_S1600000x1_S1600000x128_1_0_n_n_0_1_1128 (W (Proc.devRef .tc main_arg0))
            (W (Proc.devRef .tc main_call2_v5)))
          (broadcastInDim S1600000x128 ![] bcast_S_S1600000x128 (constant (F := Ideal) S_ .f32 0x7FC00000#32)) := by
  dsimp only [hostOps2_1, List.drop]; after_results_simp <;> rfl

theorem W9_v14 (c : Dev nD) : W9 m ρ c (Proc.devRef .tc main_v14)
    = take2 (W8 m ρ c (Proc.devRef .tc main_arg0)) (W8 m ρ c (Proc.devRef .tc main_v3)) := by
  dsimp only [W9]; generalize W8 m ρ c = W
  have e : (hostOps2_1 (F := Ideal)) = (hostOps2_1 (F := Ideal)).take 18 ++ (hostOps2_1 (F := Ideal)).drop 18 :=
    (List.take_append_drop 18 _).symm
  rw [e, StableHlo.after_append, take2_tail, take2_head_v12, take2_head_v5, take2_head_arg0]
  rfl

theorem W9_v13 (c : Dev nD) : W9 m ρ c (Proc.devRef .tc main_v13) = W8 m ρ c (Proc.devRef .tc main_v13) := by
  untouched [hostOps2_1]

theorem W9_v1 (c : Dev nD) : W9 m ρ c (Proc.devRef .tc main_v1) = W8 m ρ c (Proc.devRef .tc main_v1) := by
  untouched [hostOps2_1]

theorem W10_v20 (c : Dev nD) : W10 m ρ c (Proc.devRef .tc main_v20)
    = Host.scatterAdd scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 (W9 m ρ c (Proc.devRef .tc main_v1)))
        (mulf (W9 m ρ c (Proc.devRef .tc main_v14))
          (broadcastInDim S1600000x128 ![0, 1] bcast_S1600000x1_S1600000x128_0_1
            (broadcastInDim S1600000x1 ![0] bcast_S1600000_S1600000x1_0 (W9 m ρ c (Proc.devRef .tc main_v13))))) := by
  dsimp only [W10, hostOps2_2]; generalize W9 m ρ c = W; after_results <;> rfl

/-! ## The whole -/

/-- The two gathered score vectors and the edge weights, as launch 1 finds them. -/
theorem W5_v7_eq (c : Dev nD) : W5 m ρ c (Proc.devRef .tc main_v7)
    = take1 (scoresK (m ((c : Thread nD τ).loc main_arg0)) (m ((c : Thread nD τ).loc main_arg3)) (m ((c : Thread nD τ).loc main_arg4)))
        (rowIx (m ((c : Thread nD τ).loc main_arg1))) := by
  rw [W5_v7, W4_v7, W3_v6_eq, W3_v1, W1_v1]

theorem W5_v8_eq (c : Dev nD) : W5 m ρ c (Proc.devRef .tc main_v8)
    = take1 (scoresK (m ((c : Thread nD τ).loc main_arg0)) (m ((c : Thread nD τ).loc main_arg3)) (m ((c : Thread nD τ).loc main_arg4)))
        (colIx (m ((c : Thread nD τ).loc main_arg1))) := by
  rw [W5_v8, W4_v6, W3_v6_eq, W4_v3, W3_v3, W1_v3]

theorem W5_arg2_eq (c : Dev nD) : W5 m ρ c (Proc.devRef .tc main_arg2) = m ((c : Thread nD τ).loc main_arg2) := by
  rw [W5_arg2, W4_arg2, W3_arg2, W1_arg2]

/-- THE RESULT: the kernel program's result array after the run is `kres` of the argument arrays as launched. -/
theorem result_eq (c : Dev nD) : W10 m ρ c (Proc.devRef .tc main_v20)
    = kres (m ((c : Thread nD τ).loc main_arg0)) (m ((c : Thread nD τ).loc main_arg1)) (m ((c : Thread nD τ).loc main_arg2))
        (m ((c : Thread nD τ).loc main_arg3)) (m ((c : Thread nD τ).loc main_arg4)) := by
  rw [W10_v20, W9_v1, W8_v1, W9_v14, W8_arg0, W8_v3, W9_v13, W8_v13, W7_v12, W6_v9, W6_v10, W6_v11,
    W5_v7_eq, W5_v8_eq, W5_arg2_eq]
  rfl

end Cert.KernelIdeal.KValue

end
-- ==== Proof.PreFacts.lean ====
/-
  What the precondition says of the argument arrays: every float entry is a real number, and every entry of the
  edge-index array lies in `[-100000, 100000)`, the range in which it names a node (a negative one counting
  from the end).
-/
import proofs.«422199_j34522947125977_3_alg».proof.Proof.Gen.Pre_finite_inputs
import Idealize.ShloMosaic.PureOps.Ideal
import Idealize.ShloMosaic.PureOps.Ideal.Laws
import Idealize.ShloMosaic.Lib.ReduceAll
import Idealize.ShloMosaic.Lib.StableHlo.Predicate
import Idealize.ShloMosaic.Lib.ValueIdx

set_option maxRecDepth 16384

noncomputable section

namespace Cert.Pre_finite_inputs.Decode

open Idealize.ShloMosaic Cert.Pre_finite_inputs Cert.Pre_finite_inputs.Gen

/-- The scalar shape has one index. -/
instance : Subsingleton S_.Idx := ⟨fun a b => funext fun d => d.elim0⟩

/-- The word 0x7F800000 reads as +∞ in the 32-bit format. -/
theorem inf_word : Ideal.ofBits .f32 0x7F800000#32 = (⊤ : EReal) := by
  simp [Ideal.ofBits, Ideal.ieee]

/-- An extended real whose absolute value max x (-x) lies strictly below +∞ is a real number: at -∞ and at +∞ the
    absolute value is +∞ itself. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- A 32-bit word at least the word of -100000 and below the word of 100000, both compared signed, has its signed
    value in [-100000, 100000). -/
theorem range_of_cmp (v : BitVec 32) (h1 : IntOp.cmpi .sge v 4294867296#32 = 1#1)
    (h2 : IntOp.cmpi .slt v 100000#32 = 1#1) : (-100000 : Int) ≤ v.toInt ∧ v.toInt < 100000 := by
  rw [IntOp.cmpi_sge] at h1
  rw [IntOp.cmpi_slt] at h2
  have c1 : (4294867296#32 : BitVec 32).toInt = -100000 := by decide
  have c2 : (100000#32 : BitVec 32).toInt = 100000 := by decide
  rw [c1] at h1
  rw [c2] at h2
  exact ⟨h1, h2⟩

/-- One float array's conjunct: the conjunction over all entries of |x| < +∞, reduced to the scalar 1, says every
    entry is real. -/
theorem reals_of_all {s : Shape} {axes : List (Fin s.rank)} (a : FVec Ideal s .f32)
    (hb : S_.BroadcastsInDim s (![] : Fin 0 → Fin s.rank)) (hr : s.ReducesTo axes S_) (h0 : 0 < S_.numel)
    (e : Host.reduce IntOp.andi (cmpf .olt (Host.absf a) (broadcastInDim s ![] hb (constant S_ .f32 0x7F800000#32)))
          (constantI S_ 1 1#1) hr h0 ValueIdx.ix0 = 1#1) :
    ∀ i, ∃ r : ℝ, a i = (r : EReal) := fun i =>
  real_of_abs_lt_inf (a i) (Host.reduce_andi_all _ _ hr h0 _ e i)

/-- The precondition, all ones, gives: each float array holds real numbers only, and each edge index is in range. -/
theorem decode (a0 : FVec Ideal S100000x128 .f32) (a1 : IVec S2x1600000 32) (a2 : FVec Ideal S1600000 .f32)
    (a3 : FVec Ideal S1x128 .f32) (a4 : FVec Ideal S1 .f32)
    (h : Cert.Pre_finite_inputs.fn (F := Ideal) a0 a1 a2 a3 a4 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal))
      ∧ (∀ i, (-100000 : Int) ≤ (a1 i).toInt ∧ (a1 i).toInt < 100000) := by
  have e := congrFun h ValueIdx.ix0
  dsimp only [Cert.Pre_finite_inputs.fn, Cert.Pre_finite_inputs.fn_part1] at e
  -- the scalar result is the conjunction of the five reductions
  obtain ⟨e0234, e1⟩ := IntOp.andi_eq_one.1 e
  obtain ⟨e023, e4⟩ := IntOp.andi_eq_one.1 e0234
  obtain ⟨e02, e3⟩ := IntOp.andi_eq_one.1 e023
  obtain ⟨e0, e2⟩ := IntOp.andi_eq_one.1 e02
  refine ⟨reals_of_all a0 _ _ _ e0, reals_of_all a2 _ _ _ e2, reals_of_all a3 _ _ _ e3, reals_of_all a4 _ _ _ e4, fun i => ?_⟩
  -- the integer conjunct at entry i: both compares are 1 there
  have ei := Host.reduce_andi_all _ _ _ _ _ e1 i
  obtain ⟨hge, hlt⟩ := IntOp.andi_eq_one.1 ei
  exact range_of_cmp (a1 i) hge hlt

end Cert.Pre_finite_inputs.Decode

end
-- ==== Proof.Take.lean ====
/-
  Where every index lies in `[-100000, 100000)`, the moved index lies in `[0, 99999]`, the range test is all
  ones, and taking entries at the indices is the plain gather at the moved indices.
-/
import proofs.«422199_j34522947125977_3_alg».proof.Proof.KTerm
import Idealize.ShloMosaic.Lib.ReduceAll
import Idealize.ShloMosaic.Lib.StableHlo.Predicate
import Idealize.ShloMosaic.Lib.ValueIdx

set_option maxRecDepth 16384

noncomputable section

namespace Cert.KernelIdeal.Take

open Idealize.ShloMosaic Cert.KernelIdeal Cert.KernelIdeal.Gen Cert.KernelIdeal.KTerm

/-- An index that names a node, from the front or (negative) from the end. -/
def InRange (v : BitVec 32) : Prop := (-100000 : Int) ≤ v.toInt ∧ v.toInt < 100000

/-! ## One lane: the moved word passes both comparisons -/

/-- Adding the table's length to an index in range does not wrap. -/
theorem toInt_add_len (v : BitVec 32) (hv : InRange v) : (v + 100000#32).toInt = v.toInt + 100000 := by
  obtain ⟨h1, h2⟩ := hv
  have hL : (100000#32 : BitVec 32).toInt = 100000 := by decide
  rw [BitVec.toInt_add, hL, Int.bmod_eq_of_le (by omega) (by omega)]

/-- The moved word `w` of an index `v` in range (`v + 100000` where `v` is negative, `v` itself otherwise) has
    `0 ≤ w` and `w ≤ 99999` as signed words: the conjunction of the two comparisons is the bit 1. -/
theorem lane_test (v : BitVec 32) (hv : InRange v) :
    IntOp.andi
      (IntOp.cmpi .sge (Scalar.select (IntOp.cmpi .slt v 0#32) (IntOp.addi v 100000#32) v) 0#32)
      (IntOp.cmpi .sle (Scalar.select (IntOp.cmpi .slt v 0#32) (IntOp.addi v 100000#32) v) 99999#32) = 1#1 := by
  have hadd := toInt_add_len v hv
  obtain ⟨h1, h2⟩ := hv
  have h0 : (0#32 : BitVec 32).toInt = 0 := by decide
  have h9 : (99999#32 : BitVec 32).toInt = 99999 := by decide
  rw [IntOp.andi_eq_one, IntOp.cmpi_sge, IntOp.cmpi_sle, h0, h9]
  unfold Scalar.select
  by_cases hneg : v.toInt < 0
  · -- a negative index: the sum `v + 100000` lies in `[0, 99999]`
    have hc : IntOp.cmpi .slt v 0#32 = 1 := IntOp.cmpi_slt.2 (by rw [h0]; exact hneg)
    rw [if_pos hc]
    unfold IntOp.addi
    rw [hadd]
    omega
  · -- a non-negative index stays, and is below 100000
    have hc : ¬ IntOp.cmpi .slt v 0#32 = 1 := fun hc => hneg (by have := IntOp.cmpi_slt.1 hc; rwa [h0] at this)
    rw [if_neg hc]
    omega

/-! ## The and-reduce of an all-ones test -/

/-- A left fold by `and` from 1 over operands that are all 1 is 1. -/
theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_one f hf l

/-- A reduce by `and` from the initial value 1 of an operand that is 1 everywhere is 1 at every result index: each
    result is the fold of ones over the operand indices that drop to it. -/
theorem reduce_andi_one {s t u : Shape} {axes : List (Fin s.rank)} (x : s.Idx → BitVec 1) (init : u.Idx → BitVec 1)
    (hr : s.ReducesTo axes t) (hu : 0 < u.numel) (hinit : init (Shape.Idx.first hu) = 1#1) (hx : ∀ i, x i = 1#1)
    (j : t.Idx) : Host.reduce IntOp.andi x init hr hu j = 1#1 := by
  rw [Host.reduce_eq_foldl, hinit]
  exact foldl_andi_one x hx _

/-! ## The rows of the edge-index array -/

/-- Both rows of an edge-index array in range are in range. -/
theorem rowIx_inRange (a1 : IVec S2x1600000 32) (h : ∀ i, InRange (a1 i)) : ∀ e, InRange (rowIx a1 e) := by
  -- an entry of row 0 is the array's entry at the index the slice and the cast name
  intro e
  unfold rowIx shapeCast extractStridedSlice
  exact h _

theorem colIx_inRange (a1 : IVec S2x1600000 32) (h : ∀ i, InRange (a1 i)) : ∀ e, InRange (colIx a1 e) := by
  intro e
  unfold colIx shapeCast extractStridedSlice
  exact h _

/-! ## The range test and the two takes -/

/-- With every index in range the range test passes everywhere. -/
theorem inRange_colOf (idx : IVec S1600000 32) (h : ∀ e, InRange (idx e)) : inRange (colOf idx) = fun _ => 1#1 := by
  funext j
  unfold inRange
  -- every lane of the column reads the moved word of one entry of `idx`, which passes both comparisons
  refine reduce_andi_one _ _ _ _ rfl (fun i => ?_) j
  exact lane_test (idx _) (h _)

/-- Taking a vector's entries at in-range indices is the gather at the moved indices. -/
theorem take1_eq (tab : FVec Ideal S100000 .f32) (idx : IVec S1600000 32) (h : ∀ e, InRange (idx e)) :
    take1 tab idx = Host.gather gather_S100000_S1600000x1_S1600000_n_0_n_n_0_1_1 tab (colOf idx) := by
  unfold take1
  rw [inRange_colOf idx h]
  funext e
  exact ValueIdx.select_one _ _

/-- Taking a matrix's rows at in-range indices is the gather at the moved indices. -/
theorem take2_eq (x : FVec Ideal S100000x128 .f32) (idx : IVec S1600000 32) (h : ∀ e, InRange (idx e)) :
    take2 x idx = Host.gather gather_S100000x128_S1600000x1_S1600000x128_1_0_n_n_0_1_1128 x (colOf idx) := by
  unfold take2
  rw [inRange_colOf idx h]
  funext e
  -- the all-ones test broadcast along the rows is 1 at every entry
  exact ValueIdx.select_one _ _

end Cert.KernelIdeal.Take

end
-- ==== Proof.ScoreEq.lean ====
/-
  The node scores: the kernel's launch computes, per node, the logistic of the feature row's inner product with the
  weight row plus the bias; the reference computes 1 / (1 + exp (-(x · wᵀ + b))). On the extended reals the logistic IS
  that quotient, and the reference's contraction over the 128 features is the same sum: one vector. A real input
  gives real scores.

  * `scoresK_apply`: entry `p` of the kernel's vector is the logistic of Σ_k x[p,k]·w[0,k] + b[0] (the column of
    scores read at `(p, 0)`, the bias read through its reshape to a 1 × 1 array).
  * `e15`, `el5`, `er5`, `e67`: the reference's index maps at node `p` — the reshape's, the contraction's two
    (the right one through the transpose), the bias's two broadcasts — are the indices `(p, 0)`, `(p, k)`, `(0, k)`, `(0)`.
  * `scores_eq`: the reference's operations read at `p` one after another, its word 1.0 the extended real one, its
    host quotient, exponential and negation the extended reals' — the same term.
  * `scores_real`: with real entries the sum of products plus the bias is a real `z`, and the logistic of a real is
    the real (1 + exp (-z))⁻¹.
-/
import proofs.«422199_j34522947125977_3_alg».proof.Proof.KTerm
import proofs.«422199_j34522947125977_3_alg».proof.Proof.Gen.ReferenceIdeal.Read
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.Bridge.Score

open Idealize.ShloMosaic Cert.KernelIdeal.KTerm

open Idealize.ShloMosaic.ValueIdx Cert.ReferenceIdeal.Read

/-- A finite sum of reals, read in the extended reals, is the real sum. -/
theorem coe_sum_real {ι : Type} (s : Finset ι) (f : ι → ℝ) :
    ∑ k ∈ s, ((f k : ℝ) : EReal) = ((∑ k ∈ s, f k : ℝ) : EReal) := by
  classical
  refine Finset.induction_on s (by simp) fun a t ha ih => ?_
  rw [Finset.sum_insert ha, Finset.sum_insert ha, ih, EReal.coe_add]

/-- The reshape's index map at node `p`: the column index `(p, 0)`. -/
theorem e15 (p : Fin 100000) : idx_main_v15 (ix1 p) = ix2 p (0 : Fin 1) :=
  funext fun a => Fin.ext (by match a with | ⟨0, _⟩ => exact Nat.div_one _ | ⟨1, _⟩ => rfl)

/-- The contraction's left index at node `p`, feature `k`: the entry `(p, k)` of the features. -/
theorem el5 (p : Fin 100000) (k : Fin 128) : lidx_main_v5 (ix2 p (0 : Fin 1)) k = ix2 p k :=
  funext fun a => Fin.ext (by match a with | ⟨0, _⟩ => rfl | ⟨1, _⟩ => rfl)

/-- The contraction's right index, read through the transpose: the entry `(0, k)` of the weight row. -/
theorem er5 (p : Fin 100000) (k : Fin 128) : idx_main_v4 (ridx_main_v5 (ix2 p (0 : Fin 1)) k) = ix2 (0 : Fin 1) k :=
  funext fun a => Fin.ext (by match a with | ⟨0, _⟩ => rfl | ⟨1, _⟩ => rfl)

/-- The bias read through its two broadcasts: the one entry of the bias vector. -/
theorem e67 (p : Fin 100000) : idx_main_v6 (idx_main_v7 (ix2 p (0 : Fin 1))) = ix1 (0 : Fin 1) :=
  funext fun a => Fin.ext (by match a with | ⟨0, _⟩ => rfl)

/-- The kernel's column of scores read as a vector: entry `p` is the column's entry `(p, 0)`. -/
theorem scoresK_apply (a0 : FVec Ideal Cert.KernelIdeal.S100000x128 .f32) (a3 : FVec Ideal Cert.KernelIdeal.S1x128 .f32)
    (a4 : FVec Ideal Cert.KernelIdeal.S1 .f32) (p : Fin 100000) :
    scoresK a0 a3 a4 (ix1 p)
      = Ideal.logistic ((∑ k : Fin 128, a0 (ix2 p k) * a3 (ix2 (0 : Fin 1) k)) + a4 (ix1 (0 : Fin 1))) := by
  unfold scoresK
  rw [shapeCast_apply _ Cert.KernelIdeal.Gen.shapeCasts_S100000x1_S100000 (ix1 p) (ix2 p (0 : Fin 1))
    (by rewrite [Shape.rowMajor_val_two, Shape.rowMajor_val_one]; show p.val * 1 + 0 = p.val; omega)]
  unfold Cert.Attn.score Cert.Attn.logit
  rw [shapeCast_apply a4 Cert.KernelIdeal.Gen.shapeCasts_S1_S1x1 (ix2 (0 : Fin 1) (0 : Fin 1)) (ix1 (0 : Fin 1))
    (by rewrite [Shape.rowMajor_val_two, Shape.rowMajor_val_one]; rfl)]

/-- The kernel's score vector is the reference's. -/
theorem scores_eq (a0 : FVec Ideal Cert.KernelIdeal.S100000x128 .f32) (a3 : FVec Ideal Cert.KernelIdeal.S1x128 .f32)
    (a4 : FVec Ideal Cert.KernelIdeal.S1 .f32) :
    scoresK a0 a3 a4 = Cert.ReferenceIdeal.Read.val_main_v15 (F := Ideal) a0 a3 a4 := by
  funext i
  obtain ⟨p, rfl⟩ : ∃ p : Fin 100000, i = ix1 p := ⟨i 0, eq_ix1 i⟩
  rw [scoresK_apply, val_main_v15_apply, val_main_v14_apply, val_main_v13_apply, val_main_cst_0_apply, val_main_v12_apply,
    val_main_v11_apply, val_main_cst_apply, val_main_v10_apply, val_main_v9_apply, val_main_v8_apply, val_main_v7_apply,
    val_main_v6_apply, val_main_v5_apply]
  simp only [val_main_v4_apply, e15, el5, er5, e67, Ideal.hostDivf_def, Ideal.hostUnary_exp_def, Ideal.hostNegf_def,
    Ideal.negf_def, Ideal.addf_def, Ideal.ofBits_def, Ideal.ofBits_one_f32, Ideal.logistic]

/-- Real features, weights and bias give real scores. -/
theorem scores_real (a0 : FVec Ideal Cert.KernelIdeal.S100000x128 .f32) (a3 : FVec Ideal Cert.KernelIdeal.S1x128 .f32)
    (a4 : FVec Ideal Cert.KernelIdeal.S1 .f32) (h0 : ∀ i, ∃ r : ℝ, a0 i = (r : EReal)) (h3 : ∀ i, ∃ r : ℝ, a3 i = (r : EReal))
    (h4 : ∀ i, ∃ r : ℝ, a4 i = (r : EReal)) : ∀ i, ∃ r : ℝ, scoresK a0 a3 a4 i = (r : EReal) := by
  intro i
  obtain ⟨p, rfl⟩ : ∃ p : Fin 100000, i = ix1 p := ⟨i 0, eq_ix1 i⟩
  choose f0 hf0 using h0
  choose f3 hf3 using h3
  choose f4 hf4 using h4
  refine ⟨(1 + Real.exp (-((∑ k : Fin 128, f0 (ix2 p k) * f3 (ix2 (0 : Fin 1) k)) + f4 (ix1 (0 : Fin 1)))))⁻¹, ?_⟩
  rw [scoresK_apply, ← Ideal.logistic_coe, EReal.coe_add, ← coe_sum_real]
  simp only [hf0, hf3, hf4, EReal.coe_mul]

end Cert.Bridge.Score

end
-- ==== Proof.SoftmaxLaw.lean ====
/-
  The softmax does not depend on a real shift, on the extended reals: for real energies f and a real M,
    exp (f i - M) / Σ_j exp (f j - M) = exp (f i) / Σ_j exp (f j),
  since exp (f j - M) = exp (f j) · exp (-M) with exp (-M) a positive real, and the sums are positive reals.
  Also: the exponential of a real is a positive real, a finite sum of them is one, and the running maximum of
  finitely many reals (at least one), started from -∞, is a real.
-/
import Idealize.ShloMosaic.PureOps.Ideal
import Idealize.ShloMosaic.PureOps.Ideal.Laws
import Mathlib.Analysis.SpecialFunctions.Exp
import Mathlib.Data.EReal.Basic
import Mathlib.Data.EReal.Operations
import Mathlib.Data.EReal.Inv

noncomputable section

namespace Cert.Bridge.SoftmaxLaw

open Idealize.ShloMosaic

/-- The exponential of a real, on the extended reals, is the real exponential. -/
theorem exp_coe (r : ℝ) : Ideal.exp (r : EReal) = ((Real.exp r : ℝ) : EReal) := rfl

/-- A finite sum of exponentials of reals is the real sum. -/
theorem sum_exp_coe {ι : Type*} [Fintype ι] (f : ι → ℝ) :
    (∑ j, Ideal.exp ((f j : ℝ) : EReal)) = (((∑ j, Real.exp (f j)) : ℝ) : EReal) := by
  classical
  simp only [exp_coe]
  -- the coercion ℝ → EReal is additive, so it commutes with a finite sum: induction on the index set
  induction (Finset.univ : Finset ι) using Finset.induction_on with
  | empty => simp
  | insert a s ha ih => rw [Finset.sum_insert ha, Finset.sum_insert ha, ih, EReal.coe_add]

/-- The quotient of two reals with a nonzero divisor is the real quotient. -/
theorem div_coe (x y : ℝ) (hy : y ≠ 0) : Ideal.div (x : EReal) (y : EReal) = ((x / y : ℝ) : EReal) := by
  have hy' : (y : EReal) ≠ 0 := EReal.coe_ne_zero.2 hy
  rw [Ideal.div, if_neg hy', ← EReal.coe_inv, ← EReal.coe_mul, div_eq_mul_inv]

/-- THE LAW: a real shift of real energies does not change the softmax. -/
theorem shifted_eq {ι : Type*} [Fintype ι] [Nonempty ι] (f : ι → ℝ) (M : ℝ) (i : ι) :
    Ideal.div (Ideal.exp (((f i : ℝ) : EReal) - ((M : ℝ) : EReal))) (∑ j, Ideal.exp (((f j : ℝ) : EReal) - ((M : ℝ) : EReal)))
      = Ideal.div (Ideal.exp ((f i : ℝ) : EReal)) (∑ j, Ideal.exp ((f j : ℝ) : EReal)) := by
  -- both sums are sums of positive reals over a nonempty index set, hence positive reals
  have hpos : (0 : ℝ) < ∑ j, Real.exp (f j) :=
    Finset.sum_pos (fun j _ => Real.exp_pos (f j)) Finset.univ_nonempty
  have hpos' : (0 : ℝ) < ∑ j, Real.exp (f j - M) :=
    Finset.sum_pos (fun j _ => Real.exp_pos (f j - M)) Finset.univ_nonempty
  -- f j - M is the real difference, so everything is a coerced real
  simp only [← EReal.coe_sub]
  rw [exp_coe, exp_coe, sum_exp_coe (fun j => f j - M), sum_exp_coe f,
    div_coe _ _ hpos'.ne', div_coe _ _ hpos.ne']
  congr 1
  -- in ℝ: exp (f j - M) = exp (f j) / exp M, and the common factor 1 / exp M cancels
  simp only [Real.exp_sub]
  rw [← Finset.sum_div, div_div_div_cancel_right₀ (Real.exp_pos M).ne']

/-- The maximum of two reals, on the extended reals, is the real maximum. -/
theorem max_coe_coe (r s : ℝ) : max (r : EReal) (s : EReal) = ((max r s : ℝ) : EReal) :=
  (EReal.coe_strictMono.monotone.map_max).symm

/-- The running maximum of a list of reals, started from a real, is a real. -/
theorem foldl_max_coe {α : Type*} (g : α → EReal) (l : List α)
    (hg : ∀ a ∈ l, ∃ r : ℝ, g a = (r : EReal)) (r : ℝ) :
    ∃ r' : ℝ, l.foldl (fun acc n => max acc (g n)) (r : EReal) = (r' : EReal) := by
  induction l generalizing r with
  | nil => exact ⟨r, rfl⟩
  | cons a t ih =>
    obtain ⟨s, hs⟩ := hg a (List.mem_cons_self ..)
    rw [List.foldl_cons, hs, max_coe_coe]
    exact ih (fun b hb => hg b (List.mem_cons_of_mem _ hb)) _

/-- The running maximum, from -∞, of a nonempty list of reals is a real. -/
theorem foldl_max_real {α : Type*} (l : List α) (g : α → EReal) (hl : l ≠ []) (hg : ∀ a ∈ l, ∃ r : ℝ, g a = (r : EReal)) :
    ∃ r : ℝ, l.foldl (fun acc n => max acc (g n)) (⊥ : EReal) = (r : EReal) := by
  cases l with
  | nil => exact absurd rfl hl
  | cons a t =>
    -- the first step replaces -∞ by the first entry, a real; from there the accumulator stays real
    obtain ⟨s, hs⟩ := hg a (List.mem_cons_self ..)
    rw [List.foldl_cons, hs, max_eq_right bot_le]
    exact foldl_max_coe g t (fun b hb => hg b (List.mem_cons_of_mem _ hb)) s

end Cert.Bridge.SoftmaxLaw

end
-- ==== Proof.SoftmaxEq.lean ====
/-
  The softmax over all edges. The reference subtracts the largest energy before the exponential; the kernel does not.
  For real energies e the two agree: exp (e_i - M) / Σ_j exp (e_j - M) = exp e_i / Σ_j exp e_j, because exp (-M) is a
  positive real factor of numerator and denominator. The kernel sums over a 12500 × 128 re-laying of the 1600000
  edges; a sum does not depend on the layout.
-/
import proofs.«422199_j34522947125977_3_alg».proof.Proof.KTerm
import proofs.«422199_j34522947125977_3_alg».proof.Proof.SoftmaxLaw
import proofs.«422199_j34522947125977_3_alg».proof.Proof.Gen.ReferenceIdeal.Read
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.Bridge.Softmax

open Idealize.ShloMosaic

section Ref
open Cert.ReferenceIdeal Cert.ReferenceIdeal.Gen

/-- The largest energy (never below -∞), as a vector of 1600000 equal entries: what the reference subtracts. -/
def shift (e : FVec Ideal S1600000 .f32) : FVec Ideal S1600000 .f32 :=
  broadcastInDim S1600000 ![0] bcast_S1_S1600000_0 (broadcastInDim S1 ![] bcast_S_S1
    (maximumf (constant (F := Ideal) S_ .f32 0xFF800000#32)
      (Host.reduce FloatOps.maximumf e (constant (F := Ideal) S_ .f32 0xFF800000#32) reducesTo_S1600000_S_d0 h_S_)))

/-- The reference's softmax as a function of the energies: the shifted exponentials over their sum. -/
def smR (e : FVec Ideal S1600000 .f32) : FVec Ideal S1600000 .f32 :=
  Host.divf (Host.exp (subf e (shift e)))
    (broadcastInDim S1600000 ![0] bcast_S1_S1600000_0 (broadcastInDim S1 ![] bcast_S_S1
      (Host.reduceAdd (Host.exp (subf e (shift e))) (constant (F := Ideal) S_ .f32 0x00000000#32) reducesTo_S1600000_S_d0 h_S_)))

/-- The reference's edge weights are `smR` of its energies. -/
theorem val_main_v41_eq (x0 : FVec Ideal S100000x128 .f32) (x1 : IVec S2x1600000 32) (x2 : FVec Ideal S1600000 .f32)
    (x3 : FVec Ideal S1x128 .f32) (x4 : FVec Ideal S1 .f32) :
    Cert.ReferenceIdeal.Read.val_main_v41 (F := Ideal) x0 x1 x2 x3 x4
      = smR (Cert.ReferenceIdeal.Read.val_main_v31 (F := Ideal) x0 x1 x2 x3 x4) := by
  unfold Cert.ReferenceIdeal.Read.val_main_v41 Cert.ReferenceIdeal.Read.val_main_v40
    Cert.ReferenceIdeal.Read.val_main_v39 Cert.ReferenceIdeal.Read.val_main_v38
    Cert.ReferenceIdeal.Read.val_main_v37 Cert.ReferenceIdeal.Read.val_main_v36
    Cert.ReferenceIdeal.Read.val_main_v35 Cert.ReferenceIdeal.Read.val_main_v34
    Cert.ReferenceIdeal.Read.val_main_v33 Cert.ReferenceIdeal.Read.val_main_v32
    Cert.ReferenceIdeal.Read.val_main_cst_4 Cert.ReferenceIdeal.Read.val_main_cst_5
    Cert.ReferenceIdeal.Read.val_main_cst_6 smR shift
  rfl

/-- The word 0xFF800000 denotes -∞. -/
theorem ofBits_neg_inf : Ideal.ofBits .f32 0xFF800000#32 = (⊥ : EReal) := by
  simp [Ideal.ofBits, Ideal.ieee]

/-- The scalar shape has one index. -/
theorem idx_S_eq (j j' : S_.Idx) : j = j' := funext fun b => b.elim0

/-- The list of all indices the max-reduce runs over is not empty. -/
theorem reduce_list_ne_nil (j : S_.Idx) :
    (((List.finRange S1600000.numel).map S1600000.rowMajor.symm).filter
        fun i => reducesTo_S1600000_S_d0.drop i = j) ≠ [] := by
  have h0 : 0 < S1600000.numel := by decide
  refine List.ne_nil_of_mem (a := S1600000.rowMajor.symm ⟨0, h0⟩) ?_
  rw [List.mem_filter]
  exact ⟨List.mem_map.2 ⟨⟨0, h0⟩, List.mem_finRange _, rfl⟩, decide_eq_true (idx_S_eq _ _)⟩

/-- The running maximum of real energies over every index, from -∞, is a real number. -/
theorem reduce_max_real (f : S1600000.Idx → ℝ) (j : S_.Idx) : ∃ r : ℝ,
    Host.reduce (FloatOps.maximumf (F := Ideal) (φ := .f32)) (fun j => ((f j : ℝ) : EReal))
      (constant (F := Ideal) S_ .f32 0xFF800000#32) reducesTo_S1600000_S_d0 h_S_ j = ((r : ℝ) : EReal) := by
  rw [Host.reduce_eq_foldl]
  have hne := reduce_list_ne_nil j
  generalize (((List.finRange S1600000.numel).map S1600000.rowMajor.symm).filter
      fun i => reducesTo_S1600000_S_d0.drop i = j) = l at hne ⊢
  show ∃ r : ℝ, l.foldl (fun acc n => max acc ((f n : ℝ) : EReal)) (Ideal.ofBits .f32 0xFF800000#32) = ((r : ℝ) : EReal)
  rw [ofBits_neg_inf]
  exact Cert.Bridge.SoftmaxLaw.foldl_max_real l (fun n => ((f n : ℝ) : EReal)) hne (fun a _ => ⟨f a, rfl⟩)

/-- A scalar spread over every edge reads, at each edge, the scalar. -/
theorem bcast_scalar_apply (y : S_.Idx → EReal) (k : S1600000.Idx) :
    broadcastInDim S1600000 ![0] bcast_S1_S1600000_0 (broadcastInDim S1 ![] bcast_S_S1 y) k
      = y (fun b => b.elim0) := by
  generalize hz : broadcastInDim S1 ![] bcast_S_S1 y = z
  refine (broadcastInDim_apply _ bcast_S1_S1600000_0 z k (Cert.ReferenceIdeal.Read.idx_main_v35 k) (fun a => match a with
    | ⟨0, _⟩ => by show 0 = if (1 : Nat) = 1 then 0 else (k 0).val; rw [if_pos rfl])).trans ?_
  rw [← hz]
  exact broadcastInDim_apply _ bcast_S_S1 y _ (fun b => b.elim0) (fun a => a.elim0)

/-- The larger of a constant and a scalar array, read at an index. -/
theorem maximumf_constant_apply (w : BitVec 32) (R : S_.Idx → EReal) (j : S_.Idx) :
    maximumf (constant (F := Ideal) S_ .f32 w) R j = max (Ideal.ofBits .f32 w) (R j) := rfl

/-- The shift read at an edge: the larger of -∞'s word and the running maximum of the energies. -/
theorem shift_apply (e : FVec Ideal S1600000 .f32) (k : S1600000.Idx) :
    shift e k = max (Ideal.ofBits .f32 0xFF800000#32)
      (Host.reduce FloatOps.maximumf e (constant (F := Ideal) S_ .f32 0xFF800000#32) reducesTo_S1600000_S_d0 h_S_
        (fun b => b.elim0)) := by
  unfold shift
  generalize Host.reduce FloatOps.maximumf e (constant (F := Ideal) S_ .f32 0xFF800000#32) reducesTo_S1600000_S_d0 h_S_ = R
  exact (bcast_scalar_apply _ k).trans (maximumf_constant_apply _ R _)

/-- The largest of real energies is real: the shift is one real number at every index. -/
theorem shift_real (f : S1600000.Idx → ℝ) :
    ∃ M : ℝ, ∀ k : S1600000.Idx, shift (fun j => ((f j : ℝ) : EReal)) k = ((M : ℝ) : EReal) := by
  obtain ⟨r, hr⟩ := reduce_max_real f (fun b => b.elim0)
  refine ⟨r, fun k => ?_⟩
  refine (shift_apply _ k).trans ?_
  rw [hr, ofBits_neg_inf]
  exact max_eq_right bot_le

/-- The host's sum of an array over every edge, from a constant: the constant's value plus the sum. -/
theorem reduceAdd_all_apply (w : BitVec 32) (N : FVec Ideal S1600000 .f32) (j : S_.Idx) :
    Host.reduceAdd N (constant (F := Ideal) S_ .f32 w) reducesTo_S1600000_S_d0 h_S_ j
      = Ideal.ofBits .f32 w + ∑ k : S1600000.Idx, N k := by
  simp only [Host.reduceAdd, Ideal.hostReduceAdd_def]
  exact Ideal.hostReduceAdd_total reducesTo_S1600000_S_d0 (fun b => b.elim0) N _ j

/-- The host's quotient by a scalar spread over every edge, read at an edge. -/
theorem divf_bcast_apply (N : FVec Ideal S1600000 .f32) (D : S_.Idx → EReal) (i : S1600000.Idx) :
    Host.divf N (broadcastInDim S1600000 ![0] bcast_S1_S1600000_0 (broadcastInDim S1 ![] bcast_S_S1 D)) i
      = Ideal.div (N i) (D (fun b => b.elim0)) := by
  generalize hY : broadcastInDim S1600000 ![0] bcast_S1_S1600000_0 (broadcastInDim S1 ![] bcast_S_S1 D) = Y
  have hYi : Y i = D (fun b => b.elim0) := by rw [← hY]; exact bcast_scalar_apply D i
  rw [← hYi]
  rfl

/-- The host's exponential of a difference, read at an edge. -/
theorem exp_sub_apply (e sh : FVec Ideal S1600000 .f32) (k : S1600000.Idx) :
    Host.exp (subf e sh) k = Ideal.exp (e k - sh k) := rfl

/-- The reference's softmax read at an edge. -/
theorem smR_apply (e : FVec Ideal S1600000 .f32) (i : S1600000.Idx) :
    smR e i = Ideal.div (Ideal.exp (e i - shift e i))
      (Ideal.ofBits .f32 0x00000000#32 + ∑ j : S1600000.Idx, Ideal.exp (e j - shift e j)) := by
  unfold smR
  generalize shift e = sh
  have hN : ∀ k, Host.exp (subf e sh) k = Ideal.exp (e k - sh k) := exp_sub_apply e sh
  generalize Host.exp (subf e sh) = N at hN ⊢
  refine (divf_bcast_apply N _ i).trans ?_
  rw [reduceAdd_all_apply, hN]
  simp only [hN]

/-- For real energies the reference's shifted softmax is the unshifted one. -/
theorem smR_coe (f : S1600000.Idx → ℝ) (i : S1600000.Idx) :
    smR (fun j => ((f j : ℝ) : EReal)) i
      = Ideal.div (Ideal.exp ((f i : ℝ) : EReal)) (∑ j : S1600000.Idx, Ideal.exp ((f j : ℝ) : EReal)) := by
  obtain ⟨M, hM⟩ := shift_real f
  refine (smR_apply _ i).trans ?_
  rw [Ideal.ofBits_zero_f32, zero_add]
  simp only [hM]
  haveI : Nonempty S1600000.Idx := ⟨i⟩
  exact Cert.Bridge.SoftmaxLaw.shifted_eq f M i

end Ref

section Kern
open Cert.KernelIdeal Cert.KernelIdeal.Gen

/-- A sum over the 12500 × 128 re-laying of the edges is the sum over the edges: the re-laying is a bijection. -/
theorem sum_relaid (g : S1600000.Idx → EReal) :
    (∑ j : S12500x128.Idx, g (Shape.reshapeEquiv shapeCasts_S1600000_S12500x128 j)) = ∑ j : S1600000.Idx, g j :=
  Equiv.sum_comp (Shape.reshapeEquiv shapeCasts_S1600000_S12500x128) g

/-- Re-laying an edge index and laying it back out gives the edge index. -/
theorem relaid_back (i : S1600000.Idx) :
    Shape.reshapeEquiv shapeCasts_S1600000_S12500x128 (Shape.reshapeEquiv shapeCasts_S12500x128_S1600000 i) = i := by
  rw [Shape.reshapeEquiv_reshapeEquiv, Shape.reshapeEquiv_self]

/-- The unshifted softmax over the re-laid array, laid back out and read at an edge. -/
theorem attn_relaid (a b w : FVec Ideal S1600000 .f32) (i : S1600000.Idx) :
    (shapeCast S1600000
      (Cert.Attn.attn
        (shapeCast S12500x128 a shapeCasts_S1600000_S12500x128)
        (shapeCast S12500x128 b shapeCasts_S1600000_S12500x128)
        (shapeCast S12500x128 w shapeCasts_S1600000_S12500x128) : FVec Ideal S12500x128 .f32)
      shapeCasts_S12500x128_S1600000 : FVec Ideal S1600000 .f32) i
      = Ideal.div (Ideal.exp (a i * b i * w i)) (∑ j : S1600000.Idx, Ideal.exp (a j * b j * w j)) := by
  unfold shapeCast Cert.Attn.attn
  beta_reduce
  rw [relaid_back i]
  exact congrArg (Ideal.div (Ideal.exp (a i * b i * w i))) (sum_relaid fun j => Ideal.exp (a j * b j * w j))

/-- The product of three arrays, read at an edge. -/
theorem mulf_mulf_apply (a b w : FVec Ideal S1600000 .f32) (j : S1600000.Idx) :
    mulf (mulf a b) w j = a j * b j * w j := rfl

end Kern

/-- For real factors the kernel's unshifted softmax over the re-laid array, laid back out as a vector, is the
    reference's shifted softmax of the product. -/
theorem softmax_eq (a b w : FVec Ideal Cert.KernelIdeal.S1600000 .f32) (ha : ∀ i, ∃ r : ℝ, a i = (r : EReal))
    (hb : ∀ i, ∃ r : ℝ, b i = (r : EReal)) (hw : ∀ i, ∃ r : ℝ, w i = (r : EReal)) :
    (shapeCast Cert.KernelIdeal.S1600000
      (Cert.Attn.attn
        (shapeCast Cert.KernelIdeal.S12500x128 a Cert.KernelIdeal.Gen.shapeCasts_S1600000_S12500x128)
        (shapeCast Cert.KernelIdeal.S12500x128 b Cert.KernelIdeal.Gen.shapeCasts_S1600000_S12500x128)
        (shapeCast Cert.KernelIdeal.S12500x128 w Cert.KernelIdeal.Gen.shapeCasts_S1600000_S12500x128) : FVec Ideal Cert.KernelIdeal.S12500x128 .f32)
      Cert.KernelIdeal.Gen.shapeCasts_S12500x128_S1600000 : FVec Ideal Cert.KernelIdeal.S1600000 .f32)
      = smR (mulf (mulf a b) w) := by
  choose ra hra using ha
  choose rb hrb using hb
  choose rw' hrw using hw
  -- every energy is the real product of its three real factors
  have hp : ∀ j, a j * b j * w j = (((ra j * rb j * rw' j : ℝ)) : EReal) := fun j => by
    rw [hra j, hrb j, hrw j, EReal.coe_mul, EReal.coe_mul]
  have he : mulf (mulf a b) w = fun j => (((ra j * rb j * rw' j : ℝ)) : EReal) :=
    funext fun j => (mulf_mulf_apply a b w j).trans (hp j)
  funext i
  refine (attn_relaid a b w i).trans ?_
  rw [he]
  refine Eq.trans ?_ (smR_coe (fun j => ra j * rb j * rw' j) i).symm
  simp only [hp]

end Cert.Bridge.Softmax

end
-- ==== Proof.Bridge.lean ====
/-
  The two programs' results are one function of the arguments. With every edge index in range the kernel's three
  takes are the reference's three gathers; the score vectors agree; for real scores and edge weights the unshifted
  softmax over the re-laid edges is the reference's shifted one; and the last step — rows of x at the source nodes,
  scaled by the edge weights, added into the destination nodes — is the same operations on both sides.
-/
import proofs.«422199_j34522947125977_3_alg».proof.Proof.KTerm
import proofs.«422199_j34522947125977_3_alg».proof.Proof.Take
import proofs.«422199_j34522947125977_3_alg».proof.Proof.ScoreEq
import proofs.«422199_j34522947125977_3_alg».proof.Proof.SoftmaxEq
import proofs.«422199_j34522947125977_3_alg».proof.Proof.Gen.ReferenceIdeal.Read

set_option maxRecDepth 16384

noncomputable section

namespace Cert.Bridge

open Idealize.ShloMosaic Cert.KernelIdeal.KTerm Cert.KernelIdeal.Take

/-- An entry of a gather is an entry of the table: a gather of reals holds reals. -/
theorem gather_real {s si t : Shape} {w : Nat} (d : GatherDims s si t) (x : s.Idx → EReal) (idx : IVec si w)
    (hx : ∀ i, ∃ r : ℝ, x i = (r : EReal)) : ∀ j, ∃ r : ℝ, Host.gather d x idx j = (r : EReal) :=
  fun j => hx (d.operandIdx j idx)

/-- Under the decoded precondition the kernel program's term is the reference's last stage. -/
theorem kres_eq (a0 : FVec Ideal Cert.KernelIdeal.S100000x128 .f32) (a1 : IVec Cert.KernelIdeal.S2x1600000 32)
    (a2 : FVec Ideal Cert.KernelIdeal.S1600000 .f32) (a3 : FVec Ideal Cert.KernelIdeal.S1x128 .f32)
    (a4 : FVec Ideal Cert.KernelIdeal.S1 .f32)
    (h0 : ∀ i, ∃ r : ℝ, a0 i = (r : EReal)) (h2 : ∀ i, ∃ r : ℝ, a2 i = (r : EReal))
    (h3 : ∀ i, ∃ r : ℝ, a3 i = (r : EReal)) (h4 : ∀ i, ∃ r : ℝ, a4 i = (r : EReal))
    (h1 : ∀ i, InRange (a1 i)) :
    kres a0 a1 a2 a3 a4 = Cert.ReferenceIdeal.Read.val_main_v54 (F := Ideal) a0 a1 a2 a3 a4 := by
  have hs := Cert.Bridge.Score.scores_real a0 a3 a4 h0 h3 h4
  have hr := rowIx_inRange a1 h1
  have hc := colIx_inRange a1 h1
  unfold kres attnK
  rw [take2_eq a0 (colIx a1) hc, take1_eq (scoresK a0 a3 a4) (rowIx a1) hr, take1_eq (scoresK a0 a3 a4) (colIx a1) hc]
  rw [Cert.Bridge.Softmax.softmax_eq _ _ a2 (gather_real _ _ _ hs) (gather_real _ _ _ hs) h2]
  rw [Cert.Bridge.Score.scores_eq]
  unfold Cert.ReferenceIdeal.Read.val_main_v54 Cert.ReferenceIdeal.Read.val_main_v51 Cert.ReferenceIdeal.Read.val_main_v50
    Cert.ReferenceIdeal.Read.val_main_v49
  rw [Cert.Bridge.Softmax.val_main_v41_eq]
  rfl

end Cert.Bridge

end
-- ==== Proof.lean ====
/-
  The kernel computes, for a graph of 100000 nodes and 1600000 weighted edges, a message-passing step with one
  GLOBAL softmax over the edges: node scores s = logistic (x · wᵀ + b); edge energies e = s[row] · s[col] · weight;
  edge weights a = softmax (e) over ALL edges; the result adds a_e · x[col_e] into node row_e. The kernel program does
  the scores in one launch (ten blocks of nodes), the takes and the final gather / sum on the host, and the whole
  softmax in a second launch over the edges re-laid as a 12500 × 128 array, WITHOUT subtracting the largest energy;
  the reference is plain host code with the shifted softmax.

  On the extended reals the two agree wherever every float input is a real number and every edge index names a node
  (in [-100000, 100000): a negative index counts from the end). In that range the kernel's takes (a not-a-number word
  outside the table) are the reference's gathers (`Take`); the scores are one formula (`ScoreEq`); real scores and
  weights give real energies, for which the shift cancels (`SoftmaxLaw`, `SoftmaxEq`); the rest is the same
  operations on both sides (`Bridge`). The kernel program's result is read off its run (`KRun`) through its host
  operations and its two launches' outputs (`KRegion0`, `KRegion1`, `KValue`); the reference's off its run.
  The idealization rewrote nothing, so `preserves` is trivial; the frames are the runs with the result dropped.
-/
import proofs.«422199_j34522947125977_3_alg».proof.Defs
import proofs.«422199_j34522947125977_3_alg».proof.Proof.Gen.Kernel.Frame
import proofs.«422199_j34522947125977_3_alg».proof.Proof.Gen.KernelIdeal.Frame
import proofs.«422199_j34522947125977_3_alg».proof.Proof.Gen.ReferenceIdeal.Run
import proofs.«422199_j34522947125977_3_alg».proof.Proof.Gen.ReferenceIdeal.Read
import proofs.«422199_j34522947125977_3_alg».proof.Proof.Gen.Pre_finite_inputs
import proofs.«422199_j34522947125977_3_alg».proof.Proof.KRun
import proofs.«422199_j34522947125977_3_alg».proof.Proof.KValue
import proofs.«422199_j34522947125977_3_alg».proof.Proof.PreFacts
import proofs.«422199_j34522947125977_3_alg».proof.Proof.Bridge

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the result array at `KTerm.kres` of the
    arguments: the kernel program by its run read through its host operations and launches, the reference by its
    run and the bridge under the precondition's facts. -/
theorem algebraic : Cert.algebraic_KernelIdeal_ReferenceIdeal := by
  intro m ρ m' ρ' hpre hagree
  refine ⟨fun c => Cert.KernelIdeal.KTerm.kres
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.KValue.result_eq m ρ c), (h c).2⟩)
      (Cert.KernelIdeal.KRun.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h2, h3, h4, h1⟩ := Cert.Pre_finite_inputs.Decode.decode _ _ _ _ _ (hpre c)
    rw [Cert.ReferenceIdeal.Read.val_main_v54_eq, (hagree c).1, (hagree c).2.1, (hagree c).2.2.1, (hagree c).2.2.2.1,
      (hagree c).2.2.2.2]
    exact (Cert.Bridge.kres_eq _ _ _ _ _ h0 h2 h3 h4 h1).symm

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
